-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel

variable [Facts]

def fn {F : FTy → Type} [FloatOps F] (main_arg0 : FVec F S8x16x512x512 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  main_v3
-- ==== Kernel.lean ====
abbrev S8x16x512x512 : Shape := ⟨4, ![8, 16, 512, 512]⟩
abbrev S128x512x512 : Shape := ⟨3, ![128, 512, 512]⟩
abbrev S1x1 : Shape := ⟨2, ![1, 1]⟩
abbrev S4x512x512 : Shape := ⟨3, ![4, 512, 512]⟩
abbrev S4x512x1 : Shape := ⟨3, ![4, 512, 1]⟩
abbrev S4x512x511 : Shape := ⟨3, ![4, 512, 511]⟩
abbrev S4x1x512 : Shape := ⟨3, ![4, 1, 512]⟩
abbrev S4x511x512 : Shape := ⟨3, ![4, 511, 512]⟩
abbrev S4x512 : Shape := ⟨2, ![4, 512]⟩
abbrev S4x1 : Shape := ⟨2, ![4, 1]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 4
  | .vmem => 4
  | .smem => 0
  | _ => 0

abbrev bufTy : (tb : Table) → Fin (tcTables nBuf tb) → BufTy
  | .hbm, ⟨0, _⟩ => ⟨S8x16x512x512, .f32⟩
  | .hbm, ⟨1, _⟩ => ⟨S128x512x512, .f32⟩
  | .hbm, ⟨2, _⟩ => ⟨S1x1, .f32⟩
  | .hbm, ⟨3, _⟩ => ⟨S_, .f32⟩
  | .local _ .vmem, ⟨0, _⟩ => ⟨S4x512x512, .f32⟩
  | .local _ .vmem, ⟨1, _⟩ => ⟨S4x512x512, .f32⟩
  | .local _ .vmem, ⟨2, _⟩ => ⟨S1x1, .f32⟩
  | .local _ .vmem, ⟨3, _⟩ => ⟨S1x1, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v35 : BitVec 1 := Scalar.cmpi .eq arg0 c31_i32
  let v36 : BitVec 32 := Scalar.extui v35
  let c0_i32_9 : BitVec 32 := 0#32
  let v37 : BitVec 1 := Scalar.cmpi .ne v36 c0_i32_9
  v37

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S8x16x512x512_S128x512x512 : S8x16x512x512.ShapeCasts S128x512x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  slices_S4x512x512_o0_0_0_S4x512x1 : S4x512x512.Slices ![0, 0, 0] S4x512x1
  slices_S4x512x512_o0_0_0_S4x512x511 : S4x512x512.Slices ![0, 0, 0] S4x512x511
  concatenates_S4x512x1_S4x512x511_S4x512x512_d2 : Shape.Concatenates [S4x512x1, S4x512x511] S4x512x512 2
  slices_S4x512x512_o0_0_0_S4x1x512 : S4x512x512.Slices ![0, 0, 0] S4x1x512
  slices_S4x512x512_o0_0_0_S4x511x512 : S4x512x512.Slices ![0, 0, 0] S4x511x512
  concatenates_S4x1x512_S4x511x512_S4x512x512_d1 : Shape.Concatenates [S4x1x512, S4x511x512] S4x512x512 1
  slices_S4x512x512_o0_0_1_S4x512x511 : S4x512x512.Slices ![0, 0, 1] S4x512x511
  slices_S4x512x512_o0_0_511_S4x512x1 : S4x512x512.Slices ![0, 0, 511] S4x512x1
  concatenates_S4x512x511_S4x512x1_S4x512x512_d2 : Shape.Concatenates [S4x512x511, S4x512x1] S4x512x512 2
  slices_S4x512x512_o0_1_0_S4x511x512 : S4x512x512.Slices ![0, 1, 0] S4x511x512
  slices_S4x512x512_o0_511_0_S4x1x512 : S4x512x512.Slices ![0, 511, 0] S4x1x512
  concatenates_S4x511x512_S4x1x512_S4x512x512_d1 : Shape.Concatenates [S4x511x512, S4x1x512] S4x512x512 1
  reduces_S4x512x512_S4x512 : S4x512x512.Reduces [2] S4x512
  shapeCasts_S4x512_S4x512x1 : S4x512.ShapeCasts S4x512x1
  reduces_S4x512x1_S4x1 : S4x512x1.Reduces [1] S4x1
  shapeCasts_S4x1_S4x1x1 : S4x1.ShapeCasts S4x1x1
  reduces_S4x1x1_S1x1 : S4x1x1.Reduces [0] S1x1
  shapeCasts_S1x1_S1x1x1 : S1x1.ShapeCasts S1x1x1
  shapeCasts_S1x1x1_S1x1 : S1x1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S128x512x512.size a
  hwx0_0 : ∀ i : grid0.Coords, EltTy.bits .f32 = 32 ∨ (Rect.block (s := S128x512x512) S4x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8x16x512x512 : Shape := ⟨4, ![8, 16, 512, 512]⟩
abbrev S_ : Shape := ⟨0, ![]⟩
abbrev S8x16x1x512 : Shape := ⟨4, ![8, 16, 1, 512]⟩
abbrev S8x16x513x512 : Shape := ⟨4, ![8, 16, 513, 512]⟩
abbrev S8x16x513x1 : Shape := ⟨4, ![8, 16, 513, 1]⟩
abbrev S8x16x513x513 : Shape := ⟨4, ![8, 16, 513, 513]⟩

abbrev nBuf : Space → Nat
  | .hbm => 33
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S_, .i32⟩
  | .hbm, ⟨2, _⟩ => ⟨S8x16x1x512, .f32⟩
  | .hbm, ⟨3, _⟩ => ⟨S8x16x1x512, .f32⟩
  | .hbm, ⟨4, _⟩ => ⟨S8x16x1x512, .f32⟩
  | .hbm, ⟨5, _⟩ => ⟨S8x16x513x512, .f32⟩
  | .hbm, ⟨6, _⟩ => ⟨S8x16x1x512, .f32⟩
  | .hbm, ⟨7, _⟩ => ⟨S8x16x513x1, .f32⟩
  | .hbm, ⟨8, _⟩ => ⟨S8x16x513x1, .f32⟩
  | .hbm, ⟨9, _⟩ => ⟨S8x16x513x1, .f32⟩
  | .hbm, ⟨10, _⟩ => ⟨S8x16x513x513, .f32⟩
  | .hbm, ⟨11, _⟩ => ⟨S8x16x513x1, .f32⟩
  | .hbm, ⟨12, _⟩ => ⟨S_, .f32⟩
  | .hbm, ⟨13, _⟩ => ⟨S8x16x512x512, .f32⟩
  | .hbm, ⟨14, _⟩ => ⟨S_, .i32⟩
  | .hbm, ⟨15, _⟩ => ⟨S8x16x1x512, .f32⟩
  | .hbm, ⟨16, _⟩ => ⟨S8x16x1x512, .f32⟩
  | .hbm, ⟨17, _⟩ => ⟨S8x16x1x512, .f32⟩
  | .hbm, ⟨18, _⟩ => ⟨S8x16x1x512, .f32⟩
  | .hbm, ⟨19, _⟩ => ⟨S8x16x513x512, .f32⟩
  | .hbm, ⟨20, _⟩ => ⟨S8x16x513x1, .f32⟩
  | .hbm, ⟨21, _⟩ => ⟨S8x16x513x1, .f32⟩
  | .hbm, ⟨22, _⟩ => ⟨S8x16x513x1, .f32⟩
  | .hbm, ⟨23, _⟩ => ⟨S8x16x513x1, .f32⟩
  | .hbm, ⟨24, _⟩ => ⟨S8x16x513x513, .f32⟩
  | .hbm, ⟨25, _⟩ => ⟨S_, .f32⟩
  | .hbm, ⟨26, _⟩ => ⟨S8x16x512x512, .f32⟩
  | .hbm, ⟨27, _⟩ => ⟨S8x16x512x512, .f32⟩
  | .hbm, ⟨28, _⟩ => ⟨S8x16x512x512, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_v0 : Ref sig .tc := ⟨.hbm, 10, rfl⟩
abbrev main_call0_v9 : Ref sig .tc := ⟨.hbm, 11, rfl⟩
abbrev main_cst : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_v2 : Ref sig .tc := ⟨.hbm, 24, rfl⟩
abbrev main_cst_1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_cst_3 : Ref sig .tc := ⟨.hbm, 31, rfl⟩
abbrev main_v7 : Ref sig .tc := ⟨.hbm, 32, rfl⟩

abbrev nD : Nat := 1
abbrev τ : Topo := Topo.v7x

variable {F : FTy → Type} [FloatOps F]

class Facts₀ : Prop where
  slices_S8x16x512x512_S8x16x1x512_0_0_0_0 : S8x16x512x512.Slices ![0, 0, 0, 0] S8x16x1x512
  concatenates_S8x16x1x512_S8x16x512x512_S8x16x513x512_d2 : Shape.Concatenates [S8x16x1x512, S8x16x512x512] S8x16x513x512 2
  slices_S8x16x513x512_S8x16x1x512_0_0_512_0 : S8x16x513x512.Slices ![0, 0, 512, 0] S8x16x1x512
  slices_S8x16x513x512_S8x16x513x1_0_0_0_0 : S8x16x513x512.Slices ![0, 0, 0, 0] S8x16x513x1
  concatenates_S8x16x513x1_S8x16x513x512_S8x16x513x513_d3 : Shape.Concatenates [S8x16x513x1, S8x16x513x512] S8x16x513x513 3
  slices_S8x16x513x513_S8x16x513x1_0_0_0_512 : S8x16x513x513.Slices ![0, 0, 0, 512] S8x16x513x1
  reduceWindows_S8x16x513x513_S8x16x512x512_w1s1p0_0_w1s1p0_0_w2s1p0_0_w2s1p0_0 : S8x16x513x513.ReduceWindows (![1, 1, 2, 2] : Fin 4 → Nat) ![1, 1, 1, 1] ![0, 0, 0, 0] ![0, 0, 0, 0] S8x16x512x512
  h_S_ : 0 < S_.numel
  slices_S8x16x512x512_S8x16x1x512_0_0_511_0 : S8x16x512x512.Slices ![0, 0, 511, 0] S8x16x1x512
  concatenates_S8x16x512x512_S8x16x1x512_S8x16x513x512_d2 : Shape.Concatenates [S8x16x512x512, S8x16x1x512] S8x16x513x512 2
  slices_S8x16x513x512_S8x16x513x1_0_0_0_511 : S8x16x513x512.Slices ![0, 0, 0, 511] S8x16x513x1
  concatenates_S8x16x513x512_S8x16x513x1_S8x16x513x513_d3 : Shape.Concatenates [S8x16x513x512, S8x16x513x1] S8x16x513x513 3
  reducesTo_S8x16x512x512_S_d0_1_2_3 : S8x16x512x512.ReducesTo [0, 1, 2, 3] S_

variable [Facts₀]

class Facts : Prop extends Facts₀ where

variable [Facts]
-- ==== Proof.KerValue.lean ====
/-
  What the kernel program leaves in its result, read off its run.

  The kernel visits 32 grid points; at each it is handed a block of four images and updates a
  one-element accumulator that it carries from point to point: the first point resets it to zero
  before the update, every point adds the block's loss to it, and the last point also writes the
  accumulator, scaled, into the one-element output block, which alone is written back to the
  result array. So after point n the accumulator is the chain of n + 1 updates from zero
  (by induction on the point), the result array ends at the scaled chain after point 31, and the
  host line after the kernel only drops that array's two unit axes. The block handed over at
  point t is images 4 t … 4 t + 3 of the argument read as a stack of 128 images, which the host
  line before the kernel makes of the 8 × 16 array: image g of the stack is image (g / 16, g % 16).
-/
import proofs.«129981_j61349312856565_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- What the accumulator holds after a middle point: the update of what it held. -/
theorem sout_B (c : Dev nD) (i : grid0.Coords) (a1 : Memref sig .tc .vmem S4x512x512 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x : Vec F S4x512x512 .f32) (xs : Vec F S1x1 .f32) :
    sout0_B_0 c i a1 h1 a2 h2 a3 h3 hc0 hc1 x xs = k0_pay2 x xs := by
  unfold sout0_B_0
  rw [View.read_writes_eq_canon _ _ _ (scover0_B_0 c i a1 h1 a2 h2 a3 h3 hc0 hc1 x xs)]
  unfold kernelRun0_B
  dsimp only
  sl_unfold_words
  rw [View.canon_unit_zero hz]
  simp only [View.readAt_eq_ld, h1.read_unread, h3.read_unread, View.ld_unit_zero (S := S4x512x512) hz3, View.ld_unit_zero (S := S1x1) hz]

/-- After the last point likewise. -/
theorem sout_C (c : Dev nD) (i : grid0.Coords) (a1 : Memref sig .tc .vmem S4x512x512 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S4x512x512 .f32) (xs : Vec F S1x1 .f32) :
    sout0_C_0 c i a1 h1 a2 h2 a3 h3 hc0 hc1 x xs = k0_pay2 x xs := by
  unfold sout0_C_0
  rw [View.read_writes_eq_canon _ _ _ (scover0_C_0 c i a1 h1 a2 h2 a3 h3 hc0 hc1 x xs)]
  unfold kernelRun0_C
  dsimp only
  sl_unfold_words
  rw [View.canon_unit_zero hz]
  simp only [View.readAt_eq_ld, h1.read_unread, h3.read_unread, View.ld_unit_zero (S := S4x512x512) hz3, View.ld_unit_zero (S := S1x1) hz]

/-- The last point writes the scaled accumulator, read back after its update, into the output block. -/
theorem out_C (c : Dev nD) (i : grid0.Coords) (a1 : Memref sig .tc .vmem S4x512x512 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S4x512x512 .f32) (xs : Vec F S1x1 .f32) :
    out0_C_1 c i a1 h1 a2 h2 a3 h3 hc0 hc1 x xs = k0_pay3 (k0_pay2 x xs) := by
  unfold out0_C_1
  rw [View.read_writes_eq_canon _ _ _ (cover0_C_1 c i a1 h1 a2 h2 a3 h3 hc0 hc1 x xs)]
  unfold kernelRun0_C
  dsimp only
  sl_unfold_words
  rw [View.canon_unit_zero hz]
  simp only [View.readAt_eq_ld, h1.read_unread, h3.read_unread, View.ld_unit_zero (S := S4x512x512) hz3, View.ld_unit_zero (S := S1x1) hz,
    View.readCov_unit_zero (S := S1x1) _ hz]

/-- The first point resets the accumulator to zero and then updates it. -/
theorem sout_A (c : Dev nD) (i : grid0.Coords) (a1 : Memref sig .tc .vmem S4x512x512 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x : Vec F S4x512x512 .f32) :
    sout0_A_0 c i a1 h1 a2 h2 a3 h3 hc0 hc1 x = k0_pay2 x k0_pay1 := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S4x512x512) hz3, View.ld_unit_zero (S := S1x1) hz]

/-- The block of four images the kernel is handed at grid point t. -/
abbrev xblk (c : Dev nD) (t : Fin cfg0.N) : Vec F S4x512x512 .f32 := iblk m c 0 t

/-- The accumulator after point n: reset and updated with block 0, then updated with each later block. -/
def chain (c : Dev nD) : (n : ℕ) → n < cfg0.N → Vec F S1x1 .f32
  | 0, h => k0_pay2 (xblk m c ⟨0, h⟩) k0_pay1
  | n + 1, h => k0_pay2 (xblk m c ⟨n + 1, h⟩) (chain c n (Nat.lt_of_succ_lt h))

/-- What the carried accumulator holds after point n is that chain: by induction on the point. -/
theorem scr_eq (c : Dev nD) : ∀ (n : ℕ) (h : n < cfg0.N), (outsAt0 m c n h).2 = chain m c n h
  | 0, h => by
    rw [outsAt0_A m c ⟨0, h⟩ rfl (by dsimp only; omega)]
    dsimp only
    exact sout_A c (grid0.coords ⟨0, h⟩) (ms0_0 ⟨0, h⟩) (hs0_0 ⟨0, h⟩) (ms0_1 ⟨0, h⟩) (hs0_1 ⟨0, h⟩) scM0_0 (Memref.isWhole_whole _) _ _ (xblk m c ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine (sout_C c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) _ _ (xblk m c ⟨n + 1, h⟩) (outsAt0 m c n (Nat.lt_of_succ_lt h)).2).trans ?_
      show k0_pay2 (xblk m c ⟨n + 1, h⟩) (outsAt0 m c n (Nat.lt_of_succ_lt h)).2 = k0_pay2 (xblk m c ⟨n + 1, h⟩) (chain m c n (Nat.lt_of_succ_lt h))
      rw [scr_eq c n]
    · rw [outsAt0_B m c ⟨n + 1, h⟩ h0 h1]
      dsimp only
      refine (sout_B c (grid0.coords ⟨n + 1, h⟩) (ms0_0 ⟨n + 1, h⟩) (hs0_0 ⟨n + 1, h⟩) (ms0_1 ⟨n + 1, h⟩) (hs0_1 ⟨n + 1, h⟩) scM0_0 (Memref.isWhole_whole _) _ _ (xblk m c ⟨n + 1, h⟩) (outsAt0 m c n (Nat.lt_of_succ_lt h)).2).trans ?_
      show k0_pay2 (xblk m c ⟨n + 1, h⟩) (outsAt0 m c n (Nat.lt_of_succ_lt h)).2 = k0_pay2 (xblk m c ⟨n + 1, h⟩) (chain m c n (Nat.lt_of_succ_lt h))
      rw [scr_eq c n]

/-- The last grid point. -/
abbrev tLast : Fin cfg0.N := ⟨31, by rw [show cfg0.N = 32 from N_0]; decide⟩

/-- The output block the last point writes: the scaled accumulator. -/
def result (c : Dev nD) : Vec F S1x1 .f32 := k0_pay3 (chain m c 31 tLast.isLt)

theorem out_last (c : Dev nD) : (outsAt0 m c 31 tLast.isLt).1 = result m c := by
  have h0 : ¬(tLast : Fin cfg0.N).val % 32 = 0 := by decide
  have h1 : (tLast : Fin cfg0.N).val % 32 = 31 := by decide
  have e := outsAt0_C m c tLast h0 h1
  rw [show outsAt0 m c 31 tLast.isLt = outsAt0 m c tLast.val tLast.isLt from rfl, e]
  dsimp only
  refine (out_C c (grid0.coords tLast) (ms0_0 tLast) (hs0_0 tLast) (ms0_1 tLast) (hs0_1 tLast) scM0_0 (Memref.isWhole_whole _) _ _ (xblk m c tLast) (outsAt0 m c 30 _).2).trans ?_
  unfold result
  show k0_pay3 (k0_pay2 (xblk m c tLast) (outsAt0 m c 30 _).2) = k0_pay3 (chain m c 31 _)
  rw [scr_eq m c 30]
  rfl

/-- The scaled accumulator as the contents of the one-element result array. -/
abbrev resultBuf (c : Dev nD) : Buf (Elt F) ((c : Thread nD τ).loc main_v1) := result m c

/-- The one write-back, at the last point, writes it: the array's one block read through zero offsets is the array. -/
theorem flushed_eq (c : Dev nD) (t : Fin cfg0.N) (hf : (cfg0.win 1).flush t = true) :
    (dats m 0 c).flushed 1 t = ((cfg0.win 1).blk t).view.read (Elt F) (resultBuf m c) := by
  have hN : cfg0.N = 32 := N_0
  have h31 : t.val = 31 := by have := (flush0_1 t).mp hf; have := t.isLt; omega
  obtain rfl : t = tLast := Fin.ext h31
  show (cfg0.win 1).cut (grid0.coords tLast) ((dats m 0 c).after 1 tLast) = _
  rw [after0_1]
  rw [show outsAt0 m c tLast.val tLast.isLt = outsAt0 m c 31 tLast.isLt from rfl, out_last]
  have hz' : (fun a => win0_1.index tLast a * main_v1.ty.shape.size a) = fun _ => 0 := funext fun a => by fin_cases a <;> decide
  exact (Memref.read_access_unit_zero (Elt F) main_v1 hz' (fun a => by rw [congrFun hz' a]; simp) (resultBuf m c)).symm

/-- So the result array ends holding the scaled accumulator. -/
theorem final_o (c : Dev nD) : (dats m 0 c).arrAt 1 cfg0.N = resultBuf m c :=
  (dats m 0 c).arrAt_eq_of_cover 1 (resultBuf m c) (flushed_eq m c) fun i =>
    ⟨tLast, (flush0_1 tLast).mpr rfl, by
      show i ∈ ((View.whole main_v1).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1 from by decide +kernel]; omega⟩

/-- The host line after the kernel drops the two unit axes of that array. -/
theorem tail_eq (c : Dev nD) :
    Pipeline.afterTail₀ cfgs (dats m) 0 (V0 m) [hostOps1] c main_v2 = shapeCast S_ (result m c) shapeCasts_S1x1_S_ := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1) = resultBuf m c :=
    (Pipeline.withArrays_arr spec0 launch0.win.arr_inj c (V0 m c) (fun w => (dats m 0 c).arrAt w (cfgs 0).N) 1).trans (final_o m c)
  exact congrArg (fun v : Vec F S1x1 .f32 => shapeCast S_ v shapeCasts_S1x1_S_) e

/-- The kernel program's run, read: the result at the scaled accumulator with its unit axes dropped, the argument unchanged. -/
theorem run : θ_run defs (onTc (τ := τ) (main (F := F))) ⟨m, fun _ => 0, ρ⟩ fun r => ∀ c : Dev nD,
      r.2.mem ((c.tc : Thread nD τ).loc main_v2) = shapeCast S_ (result m c) shapeCasts_S1x1_S_
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

/-- The host line before the kernel reads the four-axis array as a stack of 128 images. -/
theorem V_stack (c : Dev nD) :
    (V m c main_v0 : Vec F S128x512x512 .f32)
      = shapeCast S128x512x512 (m ((c : Thread nD τ).loc main_arg0)) shapeCasts_S8x16x512x512_S128x512x512 := by
  show StableHlo.after hostOps0 (fun b => m (c, b)) (Proc.devRef .tc main_v0) = _
  after_results
  rfl

/-- Block t of the stack starts at image 4 t and spans whole images. -/
theorem idx_facts : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Pixel (i, j) of image n of block t is pixel (i, j) of image ((4 t + n) / 16, (4 t + n) % 16) of the argument. -/
theorem xblk_apply (c : Dev nD) (t : Fin cfg0.N) (n : Fin 4) (i j : Fin 512)
    (hb : (4 * t.val + n.val) / 16 < 8) (hc : (4 * t.val + n.val) % 16 < 16) :
    xblk m c t (ValueIdx.ix3 n i j)
      = m ((c : Thread nD τ).loc main_arg0) (ValueIdx.ix4 ⟨(4 * t.val + n.val) / 16, hb⟩ ⟨(4 * t.val + n.val) % 16, hc⟩ i j) := by
  have hN : cfg0.N = 32 := N_0
  have ht : t.val < 32 := hN ▸ t.isLt
  obtain ⟨e0, e1, e2⟩ := idx_facts t
  show iblk m c 0 t (ValueIdx.ix3 n i j) = _
  unfold iblk
  rw [View.read_apply]
  show V m c main_v0 _ = _
  rw [V_stack]
  have hg : 4 * t.val + n.val < 128 := by have := n.isLt; omega
  have hk : (((cfg0.win 0).blk t).view.emb (ValueIdx.ix3 n i j) : S128x512x512.Idx) = ValueIdx.ix3 ⟨4 * t.val + n.val, hg⟩ i j := by
    funext a
    apply Fin.ext
    match a with
    | ⟨0, _⟩ => show win0_0.index t 0 * 4 + 1 * n.val = 4 * t.val + n.val; rw [e0]; omega
    | ⟨1, _⟩ => show win0_0.index t 1 * 512 + 1 * i.val = i.val; rw [e1]; omega
    | ⟨2, _⟩ => show win0_0.index t 2 * 512 + 1 * j.val = j.val; rw [e2]; omega
  rw [hk]
  refine shapeCast_apply _ _ _ _ ?_
  show ((⟨4, ![8, 16, 512, 512]⟩ : Shape).rowMajor (ValueIdx.ix4 (⟨(4 * t.val + n.val) / 16, hb⟩ : Fin 8) (⟨(4 * t.val + n.val) % 16, hc⟩ : Fin 16) i j)).val
    = ((⟨3, ![128, 512, 512]⟩ : Shape).rowMajor (ValueIdx.ix3 (⟨4 * t.val + n.val, hg⟩ : Fin 128) i j)).val
  rw [Shape.rowMajor_val_four, Shape.rowMajor_val_three]
  show ((((4 * t.val + n.val) / 16) * 16 + (4 * t.val + n.val) % 16) * 512 + i.val) * 512 + j.val
    = ((4 * t.val + n.val) * 512 + i.val) * 512 + j.val
  have := Nat.div_add_mod (4 * t.val + n.val) 16
  rw [show (4 * t.val + n.val) / 16 * 16 + (4 * t.val + n.val) % 16 = 4 * t.val + n.val by omega]

end Cert.KernelIdeal.KerValue

end
-- ==== Proof.Spec.lean ====
/-
  The mathematics both programs compute, stated once over coordinates.

  An image is a function of a row and a column in 0..511 with extended-real values. Its grey
  opening by the flat 2×2 element is an erosion followed by a dilation, the missing neighbours at
  the border replaced by the border sample itself:
    erosion   e(i, j) = min of f over rows {i-1, i} and columns {j-1, j}   (indices clamped at 0),
    dilation  d(i, j) = max of e over rows {i, i+1} and columns {j, j+1}   (indices clamped at 511).
  The loss of one image is the sum over its pixels of (f - d)², and the result of either program
  is the sum of the losses of the 128 images scaled by 2⁻²⁵ (their pixel count is 2²⁵).
-/
import Idealize.ShloMosaic.Lib.ValueIdx
import Idealize.ShloMosaic.PureOps.Ideal

noncomputable section

namespace Cert.Spec

open Idealize.ShloMosaic Idealize.ShloMosaic.ValueIdx

/-- An image: rows by columns. -/
abbrev Img := Fin 512 → Fin 512 → EReal

/-- The index before, clamped at the first. -/
def dn (i : Fin 512) : Fin 512 := ⟨i.val - 1, by omega⟩
/-- The index after, clamped at the last. -/
def up (i : Fin 512) : Fin 512 := ⟨min (i.val + 1) 511, by omega⟩

/-- Erosion: the minimum over the 2×2 window that ends at the pixel. -/
def ero (f : Img) : Img := fun i j => min (min (f i j) (f i (dn j))) (min (f (dn i) j) (f (dn i) (dn j)))
/-- Dilation: the maximum over the 2×2 window that starts at the pixel. -/
def dil (e : Img) : Img := fun i j => max (max (e i j) (e i (up j))) (max (e (up i) j) (e (up i) (up j)))
/-- The squared difference between an image and its opening, at a pixel. -/
def sqd (f : Img) : Img := fun i j => (f i j - dil (ero f) i j) * (f i j - dil (ero f) i j)
/-- One image's loss: the squared differences summed over rows, then columns. -/
def imgSum (f : Img) : EReal := ∑ i : Fin 512, ∑ j : Fin 512, sqd f i j

/-- The four-axis array of 8 × 16 images. -/
abbrev S4 : Shape := ⟨4, ![8, 16, 512, 512]⟩

/-- Image (b, c) of the array. -/
def img4 (X : S4.Idx → EReal) (b : Fin 8) (c : Fin 16) : Img := fun i j => X (ix4 b c i j)

/-- Image g of the array read as a stack of 128 images: (g / 16, g % 16). -/
def imgOf (X : S4.Idx → EReal) (g : Fin 128) : Img :=
  img4 X ⟨g.val / 16, by omega⟩ ⟨g.val % 16, by omega⟩

/-- Image n of the block of four images the kernel handles at grid point t. -/
def imgAt (X : S4.Idx → EReal) (t : Fin 32) (n : Fin 4) : Img := imgOf X ⟨4 * t.val + n.val, by omega⟩

/-- What the kernel computes: block by block, four images a block, then the scale 2⁻²⁵ as its f32 word. -/
def kerTotal (X : S4.Idx → EReal) : EReal :=
  (∑ t : Fin 32, ∑ n : Fin 4, imgSum (imgAt X t n)) * Ideal.ofBits .f32 0x33000000#32

/-- What the reference computes: the sum over every index of the array, divided by 2²⁵ as its f32 word. -/
def refTotal (X : S4.Idx → EReal) : EReal :=
  Ideal.div (∑ idx : S4.Idx, sqd (img4 X (idx 0) (idx 1)) (idx 2) (idx 3)) (Ideal.ofBits .f32 0x4C000000#32)

end Cert.Spec

end
-- ==== Proof.KerPay.lean ====
/-
  The kernel body's three stored values, read at the ideal instance as functions of what the body loads.
-/
import proofs.«129981_j61349312856565_1_alg».proof.Proof.Gen.KernelIdeal.Skeleton
import proofs.«129981_j61349312856565_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- Image n of a block of four. -/
def blkImg (x : Vec Ideal S4x512x512 .f32) (n : Fin 4) : Cert.Spec.Img := fun i j => x (ix3 n i j)

section Shifts
variable {α : Type}

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- The block shifted one column to the right, its first column kept: at column `j` it reads column `j - 1`,
    clamped at the first. -/
theorem shift_dn_col (v : S4x512x512.Idx → α) (h1 : S4x512x512.Slices ![0, 0, 0] S4x512x1)
    (h2 : S4x512x512.Slices ![0, 0, 0] S4x512x511) (hc : Shape.Concatenates [S4x512x1, S4x512x511] S4x512x512 2)
    (n : Fin 4) (i j : Fin 512) :
    concatenate S4x512x512 2 [⟨S4x512x1, extractStridedSlice S4x512x1 ![0, 0, 0] v h1⟩,
      ⟨S4x512x511, extractStridedSlice S4x512x511 ![0, 0, 0] v h2⟩] hc (ix3 n i j) = v (ix3 n i (Cert.Spec.dn j)) := by
  by_cases hj : j.val = 0
  · refine (concatenate_pair_apply_left (t := S4x512x512) (s₁ := S4x512x1) (s₂ := S4x512x511) (2 : Fin 3) _ _ hc (ix3 n i j) rfl
      (ix3 n i (0 : Fin 1)) (fun b => ?_)).trans ?_
    · match b with
      | ⟨0, _⟩ => rfl
      | ⟨1, _⟩ => rfl
      | ⟨2, _⟩ => exact hj.symm
    · exact slice3_axis2_apply 0 v h1 n i 0 _ (by show j.val - 1 = 0 + 0; omega)
  · have hj1 : j.val - 1 < 511 := by have := j.isLt; omega
    refine (concatenate_pair_apply_right (t := S4x512x512) (s₁ := S4x512x1) (s₂ := S4x512x511) (2 : Fin 3) _ _ hc (ix3 n i j) rfl rfl
      (ix3 n i (⟨j.val - 1, hj1⟩ : Fin 511)) (fun b hb => ?_) ?_).trans ?_
    · match b with
      | ⟨0, _⟩ => rfl
      | ⟨1, _⟩ => rfl
      | ⟨2, _⟩ => exact absurd rfl hb
    · show j.val - 1 + 1 = j.val; omega
    · exact slice3_axis2_apply 0 v h2 n i _ _ (by show j.val - 1 = 0 + (j.val - 1); omega)

/-- The block shifted one row down, its first row kept: at row `i` it reads row `i - 1`, clamped at the first. -/
theorem shift_dn_row (v : S4x512x512.Idx → α) (h1 : S4x512x512.Slices ![0, 0, 0] S4x1x512)
    (h2 : S4x512x512.Slices ![0, 0, 0] S4x511x512) (hc : Shape.Concatenates [S4x1x512, S4x511x512] S4x512x512 1)
    (n : Fin 4) (i j : Fin 512) :
    concatenate S4x512x512 1 [⟨S4x1x512, extractStridedSlice S4x1x512 ![0, 0, 0] v h1⟩,
      ⟨S4x511x512, extractStridedSlice S4x511x512 ![0, 0, 0] v h2⟩] hc (ix3 n i j) = v (ix3 n (Cert.Spec.dn i) j) := by
  by_cases hi : i.val = 0
  · refine (concatenate_pair_apply_left (t := S4x512x512) (s₁ := S4x1x512) (s₂ := S4x511x512) (1 : Fin 3) _ _ hc (ix3 n i j) rfl
      (ix3 n (0 : Fin 1) j) (fun b => ?_)).trans ?_
    · match b with
      | ⟨0, _⟩ => rfl
      | ⟨1, _⟩ => exact hi.symm
      | ⟨2, _⟩ => rfl
    · exact slice3_axis1_apply 0 v h1 n 0 j _ (by show i.val - 1 = 0 + 0; omega)
  · have hi1 : i.val - 1 < 511 := by have := i.isLt; omega
    refine (concatenate_pair_apply_right (t := S4x512x512) (s₁ := S4x1x512) (s₂ := S4x511x512) (1 : Fin 3) _ _ hc (ix3 n i j) rfl rfl
      (ix3 n (⟨i.val - 1, hi1⟩ : Fin 511) j) (fun b hb => ?_) ?_).trans ?_
    · match b with
      | ⟨0, _⟩ => rfl
      | ⟨1, _⟩ => exact absurd rfl hb
      | ⟨2, _⟩ => rfl
    · show i.val - 1 + 1 = i.val; omega
    · exact slice3_axis1_apply 0 v h2 n _ j _ (by show i.val - 1 = 0 + (i.val - 1); omega)

/-- The block shifted one column to the left, its last column kept: at column `j` it reads column `j + 1`,
    clamped at the last. -/
theorem shift_up_col (v : S4x512x512.Idx → α) (h1 : S4x512x512.Slices ![0, 0, 1] S4x512x511)
    (h2 : S4x512x512.Slices ![0, 0, 511] S4x512x1) (hc : Shape.Concatenates [S4x512x511, S4x512x1] S4x512x512 2)
    (n : Fin 4) (i j : Fin 512) :
    concatenate S4x512x512 2 [⟨S4x512x511, extractStridedSlice S4x512x511 ![0, 0, 1] v h1⟩,
      ⟨S4x512x1, extractStridedSlice S4x512x1 ![0, 0, 511] v h2⟩] hc (ix3 n i j) = v (ix3 n i (Cert.Spec.up j)) := by
  by_cases hj : j.val < 511
  · refine (concatenate_pair_apply_left (t := S4x512x512) (s₁ := S4x512x511) (s₂ := S4x512x1) (2 : Fin 3) _ _ hc (ix3 n i j) rfl
      (ix3 n i (⟨j.val, hj⟩ : Fin 511)) (fun b => ?_)).trans ?_
    · match b with
      | ⟨0, _⟩ => rfl
      | ⟨1, _⟩ => rfl
      | ⟨2, _⟩ => rfl
    · exact slice3_axis2_apply 1 v h1 n i _ _ (by show min (j.val + 1) 511 = 1 + j.val; omega)
  · have hj1 : j.val = 511 := by have := j.isLt; omega
    refine (concatenate_pair_apply_right (t := S4x512x512) (s₁ := S4x512x511) (s₂ := S4x512x1) (2 : Fin 3) _ _ hc (ix3 n i j) rfl rfl
      (ix3 n i (0 : Fin 1)) (fun b hb => ?_) ?_).trans ?_
    · match b with
      | ⟨0, _⟩ => rfl
      | ⟨1, _⟩ => rfl
      | ⟨2, _⟩ => exact absurd rfl hb
    · show 0 + 511 = j.val; omega
    · exact slice3_axis2_apply 511 v h2 n i 0 _ (by show min (j.val + 1) 511 = 511 + 0; omega)

/-- The block shifted one row up, its last row kept: at row `i` it reads row `i + 1`, clamped at the last. -/
theorem shift_up_row (v : S4x512x512.Idx → α) (h1 : S4x512x512.Slices ![0, 1, 0] S4x511x512)
    (h2 : S4x512x512.Slices ![0, 511, 0] S4x1x512) (hc : Shape.Concatenates [S4x511x512, S4x1x512] S4x512x512 1)
    (n : Fin 4) (i j : Fin 512) :
    concatenate S4x512x512 1 [⟨S4x511x512, extractStridedSlice S4x511x512 ![0, 1, 0] v h1⟩,
      ⟨S4x1x512, extractStridedSlice S4x1x512 ![0, 511, 0] v h2⟩] hc (ix3 n i j) = v (ix3 n (Cert.Spec.up i) j) := by
  by_cases hi : i.val < 511
  · refine (concatenate_pair_apply_left (t := S4x512x512) (s₁ := S4x511x512) (s₂ := S4x1x512) (1 : Fin 3) _ _ hc (ix3 n i j) rfl
      (ix3 n (⟨i.val, hi⟩ : Fin 511) j) (fun b => ?_)).trans ?_
    · match b with
      | ⟨0, _⟩ => rfl
      | ⟨1, _⟩ => rfl
      | ⟨2, _⟩ => rfl
    · exact slice3_axis1_apply 1 v h1 n _ j _ (by show min (i.val + 1) 511 = 1 + i.val; omega)
  · have hi1 : i.val = 511 := by have := i.isLt; omega
    refine (concatenate_pair_apply_right (t := S4x512x512) (s₁ := S4x511x512) (s₂ := S4x1x512) (1 : Fin 3) _ _ hc (ix3 n i j) rfl rfl
      (ix3 n (0 : Fin 1) j) (fun b hb => ?_) ?_).trans ?_
    · match b with
      | ⟨0, _⟩ => rfl
      | ⟨1, _⟩ => exact absurd rfl hb
      | ⟨2, _⟩ => rfl
    · show 0 + 511 = i.val; omega
    · exact slice3_axis1_apply 511 v h2 n 0 j _ (by show min (i.val + 1) 511 = 511 + 0; omega)

end Shifts

/-! ## The pointwise part of the update: the opening's squared residual -/

section Pointwise

/-- The minimum of each sample and its left neighbour (the first column its own neighbour). -/
def colMin (v : FVec Ideal S4x512x512 .f32) : FVec Ideal S4x512x512 .f32 :=
  minimumf v (concatenate S4x512x512 2 [⟨S4x512x1, extractStridedSlice S4x512x1 ![0, 0, 0] v slices_S4x512x512_o0_0_0_S4x512x1⟩,
    ⟨S4x512x511, extractStridedSlice S4x512x511 ![0, 0, 0] v slices_S4x512x512_o0_0_0_S4x512x511⟩]
    concatenates_S4x512x1_S4x512x511_S4x512x512_d2)

/-- The minimum of each sample and its upper neighbour (the first row its own neighbour). -/
def rowMin (v : FVec Ideal S4x512x512 .f32) : FVec Ideal S4x512x512 .f32 :=
  minimumf v (concatenate S4x512x512 1 [⟨S4x1x512, extractStridedSlice S4x1x512 ![0, 0, 0] v slices_S4x512x512_o0_0_0_S4x1x512⟩,
    ⟨S4x511x512, extractStridedSlice S4x511x512 ![0, 0, 0] v slices_S4x512x512_o0_0_0_S4x511x512⟩]
    concatenates_S4x1x512_S4x511x512_S4x512x512_d1)

/-- The maximum of each sample and its right neighbour (the last column its own neighbour). -/
def colMax (v : FVec Ideal S4x512x512 .f32) : FVec Ideal S4x512x512 .f32 :=
  maximumf v (concatenate S4x512x512 2 [⟨S4x512x511, extractStridedSlice S4x512x511 ![0, 0, 1] v slices_S4x512x512_o0_0_1_S4x512x511⟩,
    ⟨S4x512x1, extractStridedSlice S4x512x1 ![0, 0, 511] v slices_S4x512x512_o0_0_511_S4x512x1⟩]
    concatenates_S4x512x511_S4x512x1_S4x512x512_d2)

/-- The maximum of each sample and its lower neighbour (the last row its own neighbour). -/
def rowMax (v : FVec Ideal S4x512x512 .f32) : FVec Ideal S4x512x512 .f32 :=
  maximumf v (concatenate S4x512x512 1 [⟨S4x511x512, extractStridedSlice S4x511x512 ![0, 1, 0] v slices_S4x512x512_o0_1_0_S4x511x512⟩,
    ⟨S4x1x512, extractStridedSlice S4x1x512 ![0, 511, 0] v slices_S4x512x512_o0_511_0_S4x1x512⟩]
    concatenates_S4x511x512_S4x1x512_S4x512x512_d1)

/-- The squared difference between the block and its opening, as the body computes it. -/
def sqV (v : FVec Ideal S4x512x512 .f32) : FVec Ideal S4x512x512 .f32 :=
  mulf (subf v (rowMax (colMax (rowMin (colMin v))))) (subf v (rowMax (colMax (rowMin (colMin v)))))

theorem colMin_apply (v : FVec Ideal S4x512x512 .f32) (n : Fin 4) (i j : Fin 512) :
    colMin v (ix3 n i j) = min (v (ix3 n i j)) (v (ix3 n i (Cert.Spec.dn j))) := by
  unfold colMin; rw [minimumf_apply, shift_dn_col]

theorem rowMin_apply (v : FVec Ideal S4x512x512 .f32) (n : Fin 4) (i j : Fin 512) :
    rowMin v (ix3 n i j) = min (v (ix3 n i j)) (v (ix3 n (Cert.Spec.dn i) j)) := by
  unfold rowMin; rw [minimumf_apply, shift_dn_row]

theorem colMax_apply (v : FVec Ideal S4x512x512 .f32) (n : Fin 4) (i j : Fin 512) :
    colMax v (ix3 n i j) = max (v (ix3 n i j)) (v (ix3 n i (Cert.Spec.up j))) := by
  unfold colMax; rw [maximumf_apply, shift_up_col]

theorem rowMax_apply (v : FVec Ideal S4x512x512 .f32) (n : Fin 4) (i j : Fin 512) :
    rowMax v (ix3 n i j) = max (v (ix3 n i j)) (v (ix3 n (Cert.Spec.up i) j)) := by
  unfold rowMax; rw [maximumf_apply, shift_up_row]

/-- The two minima are the erosion of each image of the block … -/
theorem ero_apply (v : FVec Ideal S4x512x512 .f32) (n : Fin 4) (i j : Fin 512) :
    rowMin (colMin v) (ix3 n i j) = Cert.Spec.ero (blkImg v n) i j := by
  rw [rowMin_apply, colMin_apply, colMin_apply]; rfl

/-- … the two maxima its dilation … -/
theorem dil_apply (e : FVec Ideal S4x512x512 .f32) (n : Fin 4) (i j : Fin 512) :
    rowMax (colMax e) (ix3 n i j) = Cert.Spec.dil (blkImg e n) i j := by
  rw [rowMax_apply, colMax_apply, colMax_apply]; rfl

/-- … and so the body's pointwise value is the squared difference between each image and its opening. -/
theorem sqV_apply (v : FVec Ideal S4x512x512 .f32) (n : Fin 4) (i j : Fin 512) :
    sqV v (ix3 n i j) = Cert.Spec.sqd (blkImg v n) i j := by
  have he : blkImg (rowMin (colMin v)) n = Cert.Spec.ero (blkImg v n) := by
    funext a b; exact ero_apply v n a b
  unfold sqV
  rw [mulf_apply, subf_apply, dil_apply, he]
  rfl

end Pointwise

/-! ## The three sums and the casts between them -/

section Sums

/-- The sum along the columns: at `(n, i)` the sum over `j` of the block at `(n, i, j)`. -/
theorem sum_cols (v : FVec Ideal S4x512x512 .f32) (h : S4x512x512.Reduces [2] S4x512) (hφ : FKind.Formats .f32)
    (hacc : (0x00000000#32 : BitVec 32) = FKind.add.neutral .f32 hφ) (n : Fin 4) (i : Fin 512) :
    multiReduction (F := Ideal) .add [2] S4x512 v 0x00000000#32 h hφ hacc (ix2 n i) = ∑ j : Fin 512, v (ix3 n i j) := by
  refine (Ideal.multiReduction_add_single v _ h hφ hacc (ix2 n i)).trans ?_
  refine Finset.sum_congr rfl fun j _ => congrArg v (funext fun a => ?_)
  match a with
  | ⟨0, _⟩ => rfl
  | ⟨1, _⟩ => rfl
  | ⟨2, _⟩ => rfl

/-- The sum along the rows of a one-column array: at `(n, 0)` the sum over `i` of the array at `(n, i, 0)`. -/
theorem sum_rows (w : FVec Ideal S4x512x1 .f32) (h : S4x512x1.Reduces [1] S4x1) (hφ : FKind.Formats .f32)
    (hacc : (0x00000000#32 : BitVec 32) = FKind.add.neutral .f32 hφ) (n : Fin 4) (u : Fin 1) :
    multiReduction (F := Ideal) .add [1] S4x1 w 0x00000000#32 h hφ hacc (ix2 n u) = ∑ i : Fin 512, w (ix3 n i u) := by
  refine (Ideal.multiReduction_add_single w _ h hφ hacc (ix2 n u)).trans ?_
  refine Finset.sum_congr rfl fun i _ => congrArg w (funext fun a => ?_)
  match a with
  | ⟨0, _⟩ => rfl
  | ⟨1, _⟩ => rfl
  | ⟨2, _⟩ => rfl

/-- The sum over the four images of a one-sample-per-image array. -/
theorem sum_imgs (w : FVec Ideal S4x1x1 .f32) (h : S4x1x1.Reduces [0] S1x1) (hφ : FKind.Formats .f32)
    (hacc : (0x00000000#32 : BitVec 32) = FKind.add.neutral .f32 hφ) (u u' : Fin 1) :
    multiReduction (F := Ideal) .add [0] S1x1 w 0x00000000#32 h hφ hacc (ix2 u u') = ∑ n : Fin 4, w (ix3 n u u') := by
  refine (Ideal.multiReduction_add_single w _ h hφ hacc (ix2 u u')).trans ?_
  refine Finset.sum_congr rfl fun n _ => congrArg w (funext fun a => ?_)
  match a with
  | ⟨0, _⟩ => rfl
  | ⟨1, _⟩ => rfl
  | ⟨2, _⟩ => rfl

/-- A trailing unit axis added to a `[4, 512]` array: `(n, i, 0)` reads `(n, i)`. -/
theorem cast_4x512_unit {α : Type} (w : S4x512.Idx → α) (h : S4x512.ShapeCasts S4x512x1) (n : Fin 4) (i : Fin 512) (u : Fin 1) :
    shapeCast S4x512x1 w h (ix3 n i u) = w (ix2 n i) :=
  shapeCast_apply w h _ _ (by
    have hu : u.val = 0 := by omega
    rw [Shape.rowMajor_val_three, Shape.rowMajor_val_two]
    show n.val * 512 + i.val = (n.val * 512 + i.val) * 1 + u.val
    omega)

/-- A trailing unit axis added to a `[4, 1]` array: `(n, 0, 0)` reads `(n, 0)`. -/
theorem cast_4x1_unit {α : Type} (w : S4x1.Idx → α) (h : S4x1.ShapeCasts S4x1x1) (n : Fin 4) (u u' : Fin 1) :
    shapeCast S4x1x1 w h (ix3 n u u') = w (ix2 n u) :=
  shapeCast_apply w h _ _ (by
    have hu : u'.val = 0 := by omega
    rw [Shape.rowMajor_val_three, Shape.rowMajor_val_two]
    show n.val * 1 + u.val = (n.val * 1 + u.val) * 1 + u'.val
    omega)

/-- The one index of the `[1, 1]` shape. -/
theorem idx_S1x1 (y : S1x1.Idx) : y = ix2 (0 : Fin 1) (0 : Fin 1) := by
  funext a
  match a with
  | ⟨0, _⟩ => exact Fin.ext (by have := idx2_lt0 y; show (y 0).val = 0; omega)
  | ⟨1, _⟩ => exact Fin.ext (by have := idx2_lt1 y; show (y 1).val = 0; omega)

end Sums

/-- The reset value is zero. -/
theorem pay1_apply (y : S1x1.Idx) : Gen.k0_pay1 (F := Ideal) y = 0 := by
  unfold Gen.k0_pay1
  rw [shapeCast_self, broadcast_apply]
  exact Ideal.ofBits_zero_f32

/-- The update as the body groups it: the accumulator plus the three nested sums of the pointwise part. -/
theorem pay2_eq (x : Vec Ideal S4x512x512 .f32) (a : Vec Ideal S1x1 .f32) :
    Gen.k0_pay2 (F := Ideal) x a = shapeCast S1x1 (addf a (shapeCast S1x1 (shapeCast S1x1x1
      (multiReduction (F := Ideal) .add [0] S1x1 (shapeCast S4x1x1
        (multiReduction (F := Ideal) .add [1] S4x1 (shapeCast S4x512x1
          (multiReduction (F := Ideal) .add [2] S4x512 (sqV (shapeCast S4x512x512 x shapeCasts_S4x512x512_S4x512x512))
            0x00000000#32 reduces_S4x512x512_S4x512 (.inl rfl) rfl)
          shapeCasts_S4x512_S4x512x1) 0x00000000#32 reduces_S4x512x1_S4x1 (.inl rfl) rfl)
        shapeCasts_S4x1_S4x1x1) 0x00000000#32 reduces_S4x1x1_S1x1 (.inl rfl) rfl)
      shapeCasts_S1x1_S1x1x1) shapeCasts_S1x1x1_S1x1)) shapeCasts_S1x1_S1x1 := rfl

/-- The accumulator's update: what it held plus the four images' losses. -/
theorem pay2_apply (x : Vec Ideal S4x512x512 .f32) (a : Vec Ideal S1x1 .f32) (y : S1x1.Idx) :
    Gen.k0_pay2 (F := Ideal) x a y = a y + ∑ n : Fin 4, Cert.Spec.imgSum (blkImg x n) := by
  obtain rfl := idx_S1x1 y
  rw [pay2_eq, shapeCast_self, addf_apply, shapeCast_shapeCast, shapeCast_self]
  refine congrArg (a (ix2 0 0) + ·) ((sum_imgs _ _ _ _ 0 0).trans (Finset.sum_congr rfl fun n _ => ?_))
  rw [cast_4x1_unit]
  refine (sum_rows _ _ _ _ n 0).trans (Finset.sum_congr rfl fun i _ => ?_)
  rw [cast_4x512_unit]
  exact (sum_cols _ _ _ _ n i).trans (Finset.sum_congr rfl fun j _ => sqV_apply x n i j)

/-- The result: the accumulator scaled. -/
theorem pay3_apply (v : Vec Ideal S1x1 .f32) (y : S1x1.Idx) :
    Gen.k0_pay3 (F := Ideal) v y = v y * Ideal.ofBits .f32 0x33000000#32 := by
  unfold Gen.k0_pay3
  rw [mulf_apply, broadcast_apply]
  rfl

end Cert.KernelIdeal.Pay

end
-- ==== Proof.KerTotal.lean ====
/-
  The kernel program's result at the ideal instance is the kernel total of the specification.

  Each update of the accumulator adds one block's loss, so the chain after point n is the sum of
  the losses of blocks 0 … n; the reset value is zero. The result is that sum after the last
  point times the scale word, and block t's images are images 4 t … 4 t + 3 of the argument.
-/
import proofs.«129981_j61349312856565_1_alg».proof.Proof.KerValue
import proofs.«129981_j61349312856565_1_alg».proof.Proof.KerPay
import Mathlib.Algebra.BigOperators.Fin

noncomputable section

open Idealize.ShloMosaic Idealize.ShloMosaic.TcCoe Idealize.SL.Sem

namespace Cert.KernelIdeal.KerTotal

open Cert.KernelIdeal Cert.KernelIdeal.Gen Cert.KernelIdeal.KerValue Cert.KernelIdeal.Pay Idealize.ShloMosaic.ValueIdx

variable (m : (ℓ : Loc nD τ sig) → Buf (Elt Ideal) ℓ)

/-- The loss of block k (zero past the grid). -/
def blockLoss (c : Dev nD) (k : ℕ) : EReal :=
  if h : k < cfg0.N then ∑ n : Fin 4, Cert.Spec.imgSum (blkImg (xblk m c ⟨k, h⟩) n) else 0

/-- The accumulator after point n holds the losses of blocks 0 … n. -/
theorem chain_apply (c : Dev nD) : ∀ (n : ℕ) (h : n < cfg0.N) (y : S1x1.Idx),
    chain m c n h y = ∑ k ∈ Finset.range (n + 1), blockLoss m c k
  | 0, h, y => by
    show k0_pay2 (F := Ideal) (xblk m c ⟨0, h⟩) (k0_pay1 (F := Ideal)) y = _
    rw [pay2_apply, pay1_apply, zero_add, Finset.sum_range_one]
    unfold blockLoss
    rw [dif_pos h]
  | n + 1, h, y => by
    show k0_pay2 (F := Ideal) (xblk m c ⟨n + 1, h⟩) (chain m c n (Nat.lt_of_succ_lt h)) y = _
    rw [pay2_apply, chain_apply c n (Nat.lt_of_succ_lt h) y, Finset.sum_range_succ _ (n + 1)]
    refine congrArg (_ + ·) ?_
    unfold blockLoss
    rw [dif_pos h]

/-- Image n of block t is image 4 t + n of the argument's stack. -/
theorem blkImg_eq (c : Dev nD) (t : Fin 32) (h : t.val < cfg0.N) (n : Fin 4) :
    blkImg (xblk m c ⟨t.val, h⟩) n = Cert.Spec.imgAt (m ((c : Thread nD τ).loc main_arg0)) t n := by
  funext i j
  have hb : (4 * t.val + n.val) / 16 < 8 := by have := t.isLt; have := n.isLt; omega
  have hc : (4 * t.val + n.val) % 16 < 16 := Nat.mod_lt _ (by decide)
  show xblk m c ⟨t.val, h⟩ (ix3 n i j) = _
  rw [xblk_apply m c ⟨t.val, h⟩ n i j hb hc]
  rfl

/-- The result, its unit axes dropped, is the kernel total of the specification. -/
theorem result_apply (c : Dev nD) (y : S_.Idx) :
    shapeCast S_ (result m c) shapeCasts_S1x1_S_ y = Cert.Spec.kerTotal (m ((c : Thread nD τ).loc main_arg0)) := by
  have hN : cfg0.N = 32 := N_0
  have hcast : shapeCast S_ (result m c) shapeCasts_S1x1_S_ y = result m c (ix2 0 0) := by
    refine shapeCast_apply _ _ _ _ ?_
    have a := (S1x1.rowMajor (ix2 (0 : Fin 1) (0 : Fin 1))).isLt
    have b := (S_.rowMajor y).isLt
    have e1 : S1x1.numel = 1 := by decide
    have e2 : S_.numel = 1 := by decide
    omega
  rw [hcast]
  unfold result
  rw [pay3_apply, chain_apply]
  unfold Cert.Spec.kerTotal
  refine congrArg (· * Ideal.ofBits .f32 0x33000000#32) ?_
  rw [← Fin.sum_univ_eq_sum_range (fun k => blockLoss m c k) 32]
  refine Finset.sum_congr rfl fun t _ => ?_
  have ht : t.val < cfg0.N := by rw [hN]; exact t.isLt
  unfold blockLoss
  rw [dif_pos ht]
  refine Finset.sum_congr rfl fun n _ => ?_
  rw [blkImg_eq m c t ht n]

end Cert.KernelIdeal.KerTotal

end
-- ==== Proof.RefDefs.lean ====
/-
  The reference program's result as one term of its argument, stage by stage: the image padded by
  one replicated sample in front of rows and columns, the 2×2 window minimum over it, that
  result padded by one replicated sample behind rows and columns, the 2×2 window maximum over it,
  the squared difference with the argument, its sum over every axis, and the quotient by the
  pixel count.
-/
import proofs.«129981_j61349312856565_1_alg».proof.Proof.Gen.ReferenceIdeal

noncomputable section

namespace Cert.ReferenceIdeal.RefDefs

open Cert.ReferenceIdeal Idealize.ShloMosaic
open Cert.ReferenceIdeal.Facts₀

variable {F : FTy → Type} [FloatOps F]

/-- One replicated row in FRONT of the rows: row 0 (reversed along its unit axis, that is itself) then the array. -/
def rowsLo (x : FVec F S8x16x512x512 .f32) : FVec F S8x16x513x512 .f32 :=
  concatenate S8x16x513x512 2 [⟨S8x16x1x512, Host.reverse [2] (extractStridedSlice S8x16x1x512 ![0, 0, 0, 0] x slices_S8x16x512x512_S8x16x1x512_0_0_0_0)⟩, ⟨S8x16x512x512, x⟩] concatenates_S8x16x1x512_S8x16x512x512_S8x16x513x512_d2

/-- Then one replicated column in front of the columns. -/
def padLo (x : FVec F S8x16x512x512 .f32) : FVec F S8x16x513x513 .f32 :=
  concatenate S8x16x513x513 3 [⟨S8x16x513x1, Host.reverse [3] (extractStridedSlice S8x16x513x1 ![0, 0, 0, 0] (rowsLo x) slices_S8x16x513x512_S8x16x513x1_0_0_0_0)⟩, ⟨S8x16x513x512, rowsLo x⟩] concatenates_S8x16x513x1_S8x16x513x512_S8x16x513x513_d3

/-- One replicated row BEHIND the rows: the array then row 511. -/
def rowsHi (x : FVec F S8x16x512x512 .f32) : FVec F S8x16x513x512 .f32 :=
  concatenate S8x16x513x512 2 [⟨S8x16x512x512, x⟩, ⟨S8x16x1x512, Host.reverse [2] (extractStridedSlice S8x16x1x512 ![0, 0, 511, 0] x slices_S8x16x512x512_S8x16x1x512_0_0_511_0)⟩] concatenates_S8x16x512x512_S8x16x1x512_S8x16x513x512_d2

/-- Then one replicated column behind the columns. -/
def padHi (x : FVec F S8x16x512x512 .f32) : FVec F S8x16x513x513 .f32 :=
  concatenate S8x16x513x513 3 [⟨S8x16x513x512, rowsHi x⟩, ⟨S8x16x513x1, Host.reverse [3] (extractStridedSlice S8x16x513x1 ![0, 0, 0, 511] (rowsHi x) slices_S8x16x513x512_S8x16x513x1_0_0_0_511)⟩] concatenates_S8x16x513x512_S8x16x513x1_S8x16x513x513_d3

/-- The 2×2 window minimum (from +∞) over the front-padded array. -/
def erode (x : FVec F S8x16x512x512 .f32) : FVec F S8x16x512x512 .f32 :=
  Host.reduceWindow FloatOps.minimumf ![1, 1, 2, 2] ![1, 1, 1, 1] ![0, 0, 0, 0] ![0, 0, 0, 0] (padLo x) (constant S_ .f32 0x7F800000#32) reduceWindows_S8x16x513x513_S8x16x512x512_w1s1p0_0_w1s1p0_0_w2s1p0_0_w2s1p0_0 h_S_

/-- The 2×2 window maximum (from -∞) over the back-padded array. -/
def dilate (e : FVec F S8x16x512x512 .f32) : FVec F S8x16x512x512 .f32 :=
  Host.reduceWindow FloatOps.maximumf ![1, 1, 2, 2] ![1, 1, 1, 1] ![0, 0, 0, 0] ![0, 0, 0, 0] (padHi e) (constant S_ .f32 0xFF800000#32) reduceWindows_S8x16x513x513_S8x16x512x512_w1s1p0_0_w1s1p0_0_w2s1p0_0_w2s1p0_0 h_S_

/-- The difference between the argument and its opening. -/
def diff (x : FVec F S8x16x512x512 .f32) : FVec F S8x16x512x512 .f32 := subf x (dilate (erode x))

/-- The reference's result: the mean of the squared differences. -/
def refTerm (x : FVec F S8x16x512x512 .f32) : FVec F S_ .f32 :=
  Host.divf (Host.reduceAdd (mulf (diff x) (diff x)) (constant S_ .f32 0x00000000#32) reducesTo_S8x16x512x512_S_d0_1_2_3 h_S_) (constant S_ .f32 0x4C000000#32)

end Cert.ReferenceIdeal.RefDefs

end
-- ==== Proof.RefRun.lean ====
/-
  The reference program's run: its @main is a straight line of host operations, the outlined
  padding functions' lines written out at their calls; every execution ends with the result
  buffer at the composed term of the argument.
-/
import proofs.«129981_j61349312856565_1_alg».proof.Proof.RefDefs
import Idealize.ShloMosaic.Lib.StableHlo.Run

noncomputable section

namespace Cert.ReferenceIdeal.RefRun

open Cert.ReferenceIdeal Cert.ReferenceIdeal.RefDefs Idealize.ShloMosaic Idealize.ShloMosaic.TcCoe Idealize.SL.Sem Idealize.ShloMosaic.StableHlo
open Cert.ReferenceIdeal.Facts₀

variable {F : FTy → Type} [FloatOps F]

/-- @main's thirty-two operations in order, the calls written out: the scalar the first padding takes;
    that padding's ten lines (the two copies of row 0, the reversal of the second along its unit axis,
    the rows behind it, three slices of which the last is reversed along its unit axis and set in front
    of the columns, one slice of the result); +∞ and the window minimum; the scalar the second padding
    takes; its ten lines (row 0, two copies of row 511, the reversal of the second, the rows in front of
    it, three column slices of which the last is reversed and set behind the columns); -∞ and the window
    maximum; the difference, its square, zero and the sum over every axis, the pixel count and the
    quotient. -/
abbrev ops : List (HloOp τ sig (Elt F)) :=
  [ nullary main_c (constantI S_ 32 0#32),
    TRef.unary (.of main_arg0 : TRef sig ⟨S8x16x512x512, .f32⟩) main_call0.v0 (extractStridedSlice S8x16x1x512 ![0, 0, 0, 0] · slices_S8x16x512x512_S8x16x1x512_0_0_0_0),
    TRef.unary (.of main_arg0 : TRef sig ⟨S8x16x512x512, .f32⟩) main_call0.v1 (extractStridedSlice S8x16x1x512 ![0, 0, 0, 0] · slices_S8x16x512x512_S8x16x1x512_0_0_0_0),
    TRef.unary main_call0.v1 main_call0.call0.v0 (Host.reverse [2]),
    TRef.binary main_call0.call0.v0 (.of main_arg0 : TRef sig ⟨S8x16x512x512, .f32⟩) main_call0.v3 (fun a b => concatenate S8x16x513x512 2 [⟨S8x16x1x512, a⟩, ⟨S8x16x512x512, b⟩] concatenates_S8x16x1x512_S8x16x512x512_S8x16x513x512_d2),
    TRef.unary main_call0.v3 main_call0.v4 (extractStridedSlice S8x16x1x512 ![0, 0, 512, 0] · slices_S8x16x513x512_S8x16x1x512_0_0_512_0),
    TRef.unary main_call0.v3 main_call0.v5 (extractStridedSlice S8x16x513x1 ![0, 0, 0, 0] · slices_S8x16x513x512_S8x16x513x1_0_0_0_0),
    TRef.unary main_call0.v3 main_call0.v6 (extractStridedSlice S8x16x513x1 ![0, 0, 0, 0] · slices_S8x16x513x512_S8x16x513x1_0_0_0_0),
    TRef.unary main_call0.v6 main_call0.call1.v0 (Host.reverse [3]),
    TRef.binary main_call0.call1.v0 main_call0.v3 main_call0.v8 (fun a b => concatenate S8x16x513x513 3 [⟨S8x16x513x1, a⟩, ⟨S8x16x513x512, b⟩] concatenates_S8x16x513x1_S8x16x513x512_S8x16x513x513_d3),
    TRef.unary main_call0.v8 main_call0.v9 (extractStridedSlice S8x16x513x1 ![0, 0, 0, 512] · slices_S8x16x513x513_S8x16x513x1_0_0_0_512),
    nullary main_cst (constant S_ .f32 0x7F800000#32),
    binary main_v0 main_cst main_v1 ((fun x v => Host.reduceWindow FloatOps.minimumf ![1, 1, 2, 2] ![1, 1, 1, 1] ![0, 0, 0, 0] ![0, 0, 0, 0] x v reduceWindows_S8x16x513x513_S8x16x512x512_w1s1p0_0_w1s1p0_0_w2s1p0_0_w2s1p0_0 h_S_) : (⟨S8x16x513x513, .f32⟩ : BufTy).Contents (Elt F) → (⟨S_, .f32⟩ : BufTy).Contents (Elt F) → (⟨S8x16x512x512, .f32⟩ : BufTy).Contents (Elt F)),
    nullary main_c_0 (constantI S_ 32 0#32),
    TRef.unary (.of main_v1 : TRef sig ⟨S8x16x512x512, .f32⟩) main_call1.v0 (extractStridedSlice S8x16x1x512 ![0, 0, 0, 0] · slices_S8x16x512x512_S8x16x1x512_0_0_0_0),
    TRef.unary (.of main_v1 : TRef sig ⟨S8x16x512x512, .f32⟩) main_call1.v1 (extractStridedSlice S8x16x1x512 ![0, 0, 511, 0] · slices_S8x16x512x512_S8x16x1x512_0_0_511_0),
    TRef.unary (.of main_v1 : TRef sig ⟨S8x16x512x512, .f32⟩) main_call1.v2 (extractStridedSlice S8x16x1x512 ![0, 0, 511, 0] · slices_S8x16x512x512_S8x16x1x512_0_0_511_0),
    TRef.unary main_call1.v2 main_call1.call0.v0 (Host.reverse [2]),
    TRef.binary (.of main_v1 : TRef sig ⟨S8x16x512x512, .f32⟩) main_call1.call0.v0 main_call1.v4 (fun a b => concatenate S8x16x513x512 2 [⟨S8x16x512x512, a⟩, ⟨S8x16x1x512, b⟩] concatenates_S8x16x512x512_S8x16x1x512_S8x16x513x512_d2),
    TRef.unary main_call1.v4 main_call1.v5 (extractStridedSlice S8x16x513x1 ![0, 0, 0, 0] · slices_S8x16x513x512_S8x16x513x1_0_0_0_0),
    TRef.unary main_call1.v4 main_call1.v6 (extractStridedSlice S8x16x513x1 ![0, 0, 0, 511] · slices_S8x16x513x512_S8x16x513x1_0_0_0_511),
    TRef.unary main_call1.v4 main_call1.v7 (extractStridedSlice S8x16x513x1 ![0, 0, 0, 511] · slices_S8x16x513x512_S8x16x513x1_0_0_0_511),
    TRef.unary main_call1.v7 main_call1.call1.v0 (Host.reverse [3]),
    TRef.binary main_call1.v4 main_call1.call1.v0 main_call1.v9 (fun a b => concatenate S8x16x513x513 3 [⟨S8x16x513x512, a⟩, ⟨S8x16x513x1, b⟩] concatenates_S8x16x513x512_S8x16x513x1_S8x16x513x513_d3),
    nullary main_cst_1 (constant S_ .f32 0xFF800000#32),
    binary main_v2 main_cst_1 main_v3 ((fun x v => Host.reduceWindow FloatOps.maximumf ![1, 1, 2, 2] ![1, 1, 1, 1] ![0, 0, 0, 0] ![0, 0, 0, 0] x v reduceWindows_S8x16x513x513_S8x16x512x512_w1s1p0_0_w1s1p0_0_w2s1p0_0_w2s1p0_0 h_S_) : (⟨S8x16x513x513, .f32⟩ : BufTy).Contents (Elt F) → (⟨S_, .f32⟩ : BufTy).Contents (Elt F) → (⟨S8x16x512x512, .f32⟩ : BufTy).Contents (Elt F)),
    binary main_arg0 main_v3 main_v4 (subf : (⟨S8x16x512x512, .f32⟩ : BufTy).Contents (Elt F) → (⟨S8x16x512x512, .f32⟩ : BufTy).Contents (Elt F) → (⟨S8x16x512x512, .f32⟩ : BufTy).Contents (Elt F)),
    binary main_v4 main_v4 main_v5 (mulf : (⟨S8x16x512x512, .f32⟩ : BufTy).Contents (Elt F) → (⟨S8x16x512x512, .f32⟩ : BufTy).Contents (Elt F) → (⟨S8x16x512x512, .f32⟩ : BufTy).Contents (Elt F)),
    nullary main_cst_2 (constant S_ .f32 0x00000000#32),
    binary main_v5 main_cst_2 main_v6 ((fun x v => Host.reduceAdd x v reducesTo_S8x16x512x512_S_d0_1_2_3 h_S_) : (⟨S8x16x512x512, .f32⟩ : BufTy).Contents (Elt F) → (⟨S_, .f32⟩ : BufTy).Contents (Elt F) → (⟨S_, .f32⟩ : BufTy).Contents (Elt F)),
    nullary main_cst_3 (constant S_ .f32 0x4C000000#32),
    binary main_v6 main_cst_3 main_v7 (Host.divf : (⟨S_, .f32⟩ : BufTy).Contents (Elt F) → (⟨S_, .f32⟩ : BufTy).Contents (Elt F) → (⟨S_, .f32⟩ : BufTy).Contents (Elt F)) ]

-- thirty-two binds re-associated, the padding functions' bodies and the reversals' unfolded at their calls
set_option maxRecDepth 1024 in
/-- @main is that straight line: the functions' definitions unfolded at their calls and the records at their
    fields, both sides are one chain of steps once sequencing is reassociated. -/
theorem main_eq (c : Dev nD) : main (F := F) c = seq ops := by
  simp only [main, fn_pad.body, fn_pad_1.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., unary_bufs_sub .., binary_bufs_sub .., unary_bufs_sub ..,
    nullary_bufs_sub .., binary_bufs_sub .., nullary_bufs_sub ..,
    unary_bufs_sub .., unary_bufs_sub .., unary_bufs_sub .., unary_bufs_sub .., binary_bufs_sub .., unary_bufs_sub ..,
    unary_bufs_sub .., unary_bufs_sub .., unary_bufs_sub .., binary_bufs_sub ..,
    nullary_bufs_sub .., binary_bufs_sub .., binary_bufs_sub .., binary_bufs_sub .., nullary_bufs_sub .., binary_bufs_sub ..,
    nullary_bufs_sub .., binary_bufs_sub ..⟩

attribute [local irreducible] Host.reduceWindow Host.reduceAdd Host.reverse Host.divf concatenate extractStridedSlice in
/-- The fold at the result buffer is `refTerm` of the argument's contents: each operation's result read at its
    own buffer is its function's value at its operands', and the typed references' transports are the identity
    at these literal references. -/
theorem out_eq (V : Valuation τ sig (Elt F)) :
    after ops V (Proc.devRef .tc main_v7) = refTerm (V (Proc.devRef .tc main_arg0)) := by
  after_results
  rfl

/-- The argument's buffer is written by no operation. -/
theorem arg0_eq (V : Valuation τ sig (Elt F)) :
    after ops V (Proc.devRef .tc main_arg0) = V (Proc.devRef .tc main_arg0) := by
  after_results

/-- Every weakly fair execution of @main terminates with the result at `refTerm` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v7).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefValue.lean ====
/-
  The reference's result term read at the ideal instance, index by index.

  The padded arrays read a clamped sample of the argument; a 2×2 window fold at a pixel is the fold of its
  four samples in row-major order; from +∞ with minimum, and from -∞ with maximum, those are the
  specification's erosion and dilation; the sum over every axis of the squared differences, divided by
  the pixel count's word, is the specification's total.
-/
import proofs.«129981_j61349312856565_1_alg».proof.Proof.RefDefs
import proofs.«129981_j61349312856565_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.RefDefs Idealize.ShloMosaic Idealize.ShloMosaic.ValueIdx

variable {α : Type}

/-- Reversal along an axis of extent one is the identity: rows. -/
theorem reverse_unit_row (x : S8x16x1x512.Idx → α) (b : Fin 8) (c : Fin 16) (i : Fin 1) (j : Fin 512) :
    Host.reverse [2] x (ix4 b c i j) = x (ix4 b c i j) := by
  unfold Host.reverse
  refine congrArg x (funext fun a => ?_)
  match a with
  | ⟨0, _⟩ => rfl
  | ⟨1, _⟩ => rfl
  | ⟨2, _⟩ =>
    have hi : i = 0 := Subsingleton.elim _ _
    subst hi
    rfl
  | ⟨3, _⟩ => rfl

/-- Reversal along an axis of extent one is the identity: columns. -/
theorem reverse_unit_col (x : S8x16x513x1.Idx → α) (b : Fin 8) (c : Fin 16) (i : Fin 513) (j : Fin 1) :
    Host.reverse [3] x (ix4 b c i j) = x (ix4 b c i j) := by
  unfold Host.reverse
  refine congrArg x (funext fun a => ?_)
  match a with
  | ⟨0, _⟩ => rfl
  | ⟨1, _⟩ => rfl
  | ⟨2, _⟩ => rfl
  | ⟨3, _⟩ =>
    have hj : j = 0 := Subsingleton.elim _ _
    subst hj
    rfl

/-- The array with its first row repeated in front: row i reads row i - 1 (row 0 reads row 0). -/
theorem rowsLo_apply (x : FVec Ideal S8x16x512x512 .f32) (b : Fin 8) (c : Fin 16) (i : Fin 513) (j : Fin 512) :
    rowsLo (F := Ideal) x (ix4 b c i j) = x (ix4 b c ⟨i.val - 1, by omega⟩ j) := by
  unfold rowsLo
  by_cases hi : i.val = 0
  · refine (concatenate_pair_apply_left (t := S8x16x513x512) (s₁ := S8x16x1x512) (s₂ := S8x16x512x512) _ _ _ _ (ix4 b c i j) rfl (ix4 b c ⟨0, by omega⟩ j) ?_).trans ?_
    · exact fun a => match a with
        | ⟨0, _⟩ => rfl
        | ⟨1, _⟩ => rfl
        | ⟨2, _⟩ => by show 0 = i.val; omega
        | ⟨3, _⟩ => rfl
    · rw [reverse_unit_row]
      refine extractStridedSlice_apply _ _ _ _ (ix4 b c ⟨i.val - 1, by omega⟩ j) ?_
      exact fun a => match a with
        | ⟨0, _⟩ => by show b.val = 0 + b.val; omega
        | ⟨1, _⟩ => by show c.val = 0 + c.val; omega
        | ⟨2, _⟩ => by show i.val - 1 = 0 + 0; omega
        | ⟨3, _⟩ => by show j.val = 0 + j.val; omega
  · refine concatenate_pair_apply_right (t := S8x16x513x512) (s₁ := S8x16x1x512) (s₂ := S8x16x512x512) _ _ _ _ (ix4 b c i j) rfl rfl (ix4 b c ⟨i.val - 1, by omega⟩ j) ?_ ?_
    · exact fun a => match a with
        | ⟨0, _⟩ => fun _ => rfl
        | ⟨1, _⟩ => fun _ => rfl
        | ⟨2, _⟩ => fun h => absurd rfl h
        | ⟨3, _⟩ => fun _ => rfl
    · show i.val - 1 + 1 = i.val; omega

/-- Then the first column repeated in front: column j reads column j - 1. -/
theorem padLo_apply (x : FVec Ideal S8x16x512x512 .f32) (b : Fin 8) (c : Fin 16) (i j : Fin 513) :
    padLo (F := Ideal) x (ix4 b c i j) = x (ix4 b c ⟨i.val - 1, by omega⟩ ⟨j.val - 1, by omega⟩) := by
  unfold padLo
  by_cases hj : j.val = 0
  · refine (concatenate_pair_apply_left (t := S8x16x513x513) (s₁ := S8x16x513x1) (s₂ := S8x16x513x512) _ _ _ _ (ix4 b c i j) rfl (ix4 b c i ⟨0, by omega⟩) ?_).trans ?_
    · exact fun a => match a with
        | ⟨0, _⟩ => rfl
        | ⟨1, _⟩ => rfl
        | ⟨2, _⟩ => rfl
        | ⟨3, _⟩ => by show 0 = j.val; omega
    · rw [reverse_unit_col]
      refine (extractStridedSlice_apply _ _ _ _ (ix4 b c i ⟨j.val - 1, by omega⟩) ?_).trans (rowsLo_apply x b c i _)
      exact fun a => match a with
        | ⟨0, _⟩ => by show b.val = 0 + b.val; omega
        | ⟨1, _⟩ => by show c.val = 0 + c.val; omega
        | ⟨2, _⟩ => by show i.val = 0 + i.val; omega
        | ⟨3, _⟩ => by show j.val - 1 = 0 + 0; omega
  · refine (concatenate_pair_apply_right (t := S8x16x513x513) (s₁ := S8x16x513x1) (s₂ := S8x16x513x512) _ _ _ _ (ix4 b c i j) rfl rfl (ix4 b c i ⟨j.val - 1, by omega⟩) ?_ ?_).trans (rowsLo_apply x b c i _)
    · exact fun a => match a with
        | ⟨0, _⟩ => fun _ => rfl
        | ⟨1, _⟩ => fun _ => rfl
        | ⟨2, _⟩ => fun _ => rfl
        | ⟨3, _⟩ => fun h => absurd rfl h
    · show j.val - 1 + 1 = j.val; omega

/-- The array with its last row repeated behind: row i reads row min i 511. -/
theorem rowsHi_apply (x : FVec Ideal S8x16x512x512 .f32) (b : Fin 8) (c : Fin 16) (i : Fin 513) (j : Fin 512) :
    rowsHi (F := Ideal) x (ix4 b c i j) = x (ix4 b c ⟨min i.val 511, by omega⟩ j) := by
  unfold rowsHi
  by_cases hi : i.val < 512
  · refine (concatenate_pair_apply_left (t := S8x16x513x512) (s₁ := S8x16x512x512) (s₂ := S8x16x1x512) _ _ _ _ (ix4 b c i j) rfl (ix4 b c ⟨min i.val 511, by omega⟩ j) ?_)
    exact fun a => match a with
      | ⟨0, _⟩ => rfl
      | ⟨1, _⟩ => rfl
      | ⟨2, _⟩ => by show min i.val 511 = i.val; omega
      | ⟨3, _⟩ => rfl
  · refine (concatenate_pair_apply_right (t := S8x16x513x512) (s₁ := S8x16x512x512) (s₂ := S8x16x1x512) _ _ _ _ (ix4 b c i j) rfl rfl (ix4 b c ⟨0, by omega⟩ j) ?_ ?_).trans ?_
    · exact fun a => match a with
        | ⟨0, _⟩ => fun _ => rfl
        | ⟨1, _⟩ => fun _ => rfl
        | ⟨2, _⟩ => fun h => absurd rfl h
        | ⟨3, _⟩ => fun _ => rfl
    · show 0 + 512 = i.val; omega
    · rw [reverse_unit_row]
      refine extractStridedSlice_apply _ _ _ _ (ix4 b c ⟨min i.val 511, by omega⟩ j) ?_
      exact fun a => match a with
        | ⟨0, _⟩ => by show b.val = 0 + b.val; omega
        | ⟨1, _⟩ => by show c.val = 0 + c.val; omega
        | ⟨2, _⟩ => by show min i.val 511 = 511 + 0; omega
        | ⟨3, _⟩ => by show j.val = 0 + j.val; omega

/-- Then the last column repeated behind: column j reads column min j 511. -/
theorem padHi_apply (x : FVec Ideal S8x16x512x512 .f32) (b : Fin 8) (c : Fin 16) (i j : Fin 513) :
    padHi (F := Ideal) x (ix4 b c i j) = x (ix4 b c ⟨min i.val 511, by omega⟩ ⟨min j.val 511, by omega⟩) := by
  unfold padHi
  by_cases hj : j.val < 512
  · refine (concatenate_pair_apply_left (t := S8x16x513x513) (s₁ := S8x16x513x512) (s₂ := S8x16x513x1) _ _ _ _ (ix4 b c i j) rfl (ix4 b c i ⟨min j.val 511, by omega⟩) ?_).trans (rowsHi_apply x b c i _)
    exact fun a => match a with
      | ⟨0, _⟩ => rfl
      | ⟨1, _⟩ => rfl
      | ⟨2, _⟩ => rfl
      | ⟨3, _⟩ => by show min j.val 511 = j.val; omega
  · refine (concatenate_pair_apply_right (t := S8x16x513x513) (s₁ := S8x16x513x512) (s₂ := S8x16x513x1) _ _ _ _ (ix4 b c i j) rfl rfl (ix4 b c i ⟨0, by omega⟩) ?_ ?_).trans ?_
    · exact fun a => match a with
        | ⟨0, _⟩ => fun _ => rfl
        | ⟨1, _⟩ => fun _ => rfl
        | ⟨2, _⟩ => fun _ => rfl
        | ⟨3, _⟩ => fun h => absurd rfl h
    · show 0 + 512 = j.val; omega
    · rw [reverse_unit_col]
      refine (extractStridedSlice_apply _ _ _ _ (ix4 b c i ⟨min j.val 511, by omega⟩) ?_).trans (rowsHi_apply x b c i _)
      exact fun a => match a with
        | ⟨0, _⟩ => by show b.val = 0 + b.val; omega
        | ⟨1, _⟩ => by show c.val = 0 + c.val; omega
        | ⟨2, _⟩ => by show i.val = 0 + i.val; omega
        | ⟨3, _⟩ => by show min j.val 511 = 511 + 0; omega

/-- The positions below four, in order. -/
theorem finRange_four : List.finRange 4 = [0, 1, 2, 3] := by decide

/-- A left fold over the four positions of a list of length four, written out. -/
theorem foldl_finRange_four {β : Type} (g : β → Fin 4 → β) (v : β) :
    (List.finRange 4).foldl g v = g (g (g (g v 0) 1) 2) 3 := by
  rw [finRange_four]; rfl

/-- A decided choice whose condition holds is its first branch, whatever decides the condition. -/
theorem dite_eq_of {P : Prop} {inst : Decidable P} (t : P → α) (v r : α) (hP : P) (ht : t hP = r) :
    @dite α P inst t (fun _ => v) = r := by
  rw [dif_pos hP]; exact ht

/-- The window: one sample on the two leading axes, two on rows and on columns. -/
abbrev W22 : Shape := ⟨4, ![1, 1, 2, 2]⟩

/-- Row-major position n of the window is the offset (0, 0, n / 2, n % 2). -/
theorem w22_symm : ∀ n : Fin W22.numel, (W22.rowMajor.symm n 0).val = 0 ∧ (W22.rowMajor.symm n 1).val = 0
    ∧ (W22.rowMajor.symm n 2).val = n.val / 2 ∧ (W22.rowMajor.symm n 3).val = n.val % 2 := by decide

/-- The position the window fold reads on axis a: the pixel's coordinate (stride one) plus the offset of window position n. -/
abbrev wpos (h : S8x16x513x513.ReduceWindows (![1, 1, 2, 2] : Fin 4 → Nat) ![1, 1, 1, 1] ![0, 0, 0, 0] ![0, 0, 0, 0] S8x16x512x512)
    (b : Fin 8) (c : Fin 16) (i j : Fin 512) (n : Fin W22.numel) (a : Fin 4) : Nat :=
  (ix4 b c i j (a.cast h.1.symm)).val * (![1, 1, 1, 1] : Fin 4 → Nat) a + (W22.rowMajor.symm n a).val

/-- Every position of the window at a pixel is inside the padded array (there is no padding to fall into). -/
theorem window_in (h : S8x16x513x513.ReduceWindows (![1, 1, 2, 2] : Fin 4 → Nat) ![1, 1, 1, 1] ![0, 0, 0, 0] ![0, 0, 0, 0] S8x16x512x512)
    (b : Fin 8) (c : Fin 16) (i j : Fin 512) (n : Fin W22.numel) :
    ∀ a : Fin 4, (![0, 0, 0, 0] : Fin 4 → Nat) a ≤ wpos h b c i j n a
      ∧ wpos h b c i j n a - (![0, 0, 0, 0] : Fin 4 → Nat) a < S8x16x513x513.size a := by
  obtain ⟨e0, e1, e2, e3⟩ := w22_symm n
  have hn := n.isLt
  have hN : W22.numel = 4 := by decide
  exact fun a => match a with
    | ⟨0, _⟩ => ⟨Nat.zero_le _, by show b.val * 1 + (W22.rowMajor.symm n 0).val - 0 < 8; omega⟩
    | ⟨1, _⟩ => ⟨Nat.zero_le _, by show c.val * 1 + (W22.rowMajor.symm n 1).val - 0 < 16; omega⟩
    | ⟨2, _⟩ => ⟨Nat.zero_le _, by show i.val * 1 + (W22.rowMajor.symm n 2).val - 0 < 513; omega⟩
    | ⟨3, _⟩ => ⟨Nat.zero_le _, by show j.val * 1 + (W22.rowMajor.symm n 3).val - 0 < 513; omega⟩

/-- The sample at a position of the window: the pixel shifted by the offset on rows and columns. -/
theorem window_pt (x : S8x16x513x513.Idx → α)
    (h : S8x16x513x513.ReduceWindows (![1, 1, 2, 2] : Fin 4 → Nat) ![1, 1, 1, 1] ![0, 0, 0, 0] ![0, 0, 0, 0] S8x16x512x512)
    (b : Fin 8) (c : Fin 16) (i j : Fin 512) (n : Fin W22.numel) (di dj : Nat) (hdi : di ≤ 1) (hdj : dj ≤ 1)
    (h2 : n.val / 2 = di) (h3 : n.val % 2 = dj)
    (hin : ∀ a : Fin 4, (![0, 0, 0, 0] : Fin 4 → Nat) a ≤ wpos h b c i j n a
      ∧ wpos h b c i j n a - (![0, 0, 0, 0] : Fin 4 → Nat) a < S8x16x513x513.size a) :
    x (fun a => ⟨wpos h b c i j n a - (![0, 0, 0, 0] : Fin 4 → Nat) a, (hin a).2⟩)
      = x (ix4 b c ⟨i.val + di, by omega⟩ ⟨j.val + dj, by omega⟩) := by
  obtain ⟨e0, e1, e2, e3⟩ := w22_symm n
  refine congrArg x (funext fun a => ?_)
  match a with
  | ⟨0, _⟩ => exact Fin.ext (by show b.val * 1 + (W22.rowMajor.symm n 0).val - 0 = b.val; omega)
  | ⟨1, _⟩ => exact Fin.ext (by show c.val * 1 + (W22.rowMajor.symm n 1).val - 0 = c.val; omega)
  | ⟨2, _⟩ => exact Fin.ext (by show i.val * 1 + (W22.rowMajor.symm n 2).val - 0 = i.val + di; omega)
  | ⟨3, _⟩ => exact Fin.ext (by show j.val * 1 + (W22.rowMajor.symm n 3).val - 0 = j.val + dj; omega)

/-- The 2×2 window fold at a pixel: the four samples in row-major order of the window. -/
theorem reduceWindow_apply (f : α → α → α) (x : S8x16x513x513.Idx → α) (init : S_.Idx → α)
    (h : S8x16x513x513.ReduceWindows (![1, 1, 2, 2] : Fin 4 → Nat) ![1, 1, 1, 1] ![0, 0, 0, 0] ![0, 0, 0, 0] S8x16x512x512)
    (hu : 0 < S_.numel) (b : Fin 8) (c : Fin 16) (i j : Fin 512) :
    Host.reduceWindow f ![1, 1, 2, 2] ![1, 1, 1, 1] ![0, 0, 0, 0] ![0, 0, 0, 0] x init h hu (ix4 b c i j)
      = f (f (f (f (init (Shape.Idx.first hu)) (x (ix4 b c ⟨i.val + 0, by omega⟩ ⟨j.val + 0, by omega⟩)))
            (x (ix4 b c ⟨i.val + 0, by omega⟩ ⟨j.val + 1, by omega⟩)))
          (x (ix4 b c ⟨i.val + 1, by omega⟩ ⟨j.val + 0, by omega⟩)))
        (x (ix4 b c ⟨i.val + 1, by omega⟩ ⟨j.val + 1, by omega⟩)) := by
  unfold Host.reduceWindow
  refine (foldl_finRange_four _ _).trans ?_
  refine congr (congrArg f (congr (congrArg f (congr (congrArg f (congrArg (f _) ?_)) ?_)) ?_)) ?_
  · exact dite_eq_of _ _ _ (window_in h b c i j (0 : Fin 4)) (window_pt x h b c i j (0 : Fin 4) 0 0 (by omega) (by omega) rfl rfl (window_in h b c i j (0 : Fin 4)))
  · exact dite_eq_of _ _ _ (window_in h b c i j (1 : Fin 4)) (window_pt x h b c i j (1 : Fin 4) 0 1 (by omega) (by omega) rfl rfl (window_in h b c i j (1 : Fin 4)))
  · exact dite_eq_of _ _ _ (window_in h b c i j (2 : Fin 4)) (window_pt x h b c i j (2 : Fin 4) 1 0 (by omega) (by omega) rfl rfl (window_in h b c i j (2 : Fin 4)))
  · exact dite_eq_of _ _ _ (window_in h b c i j (3 : Fin 4)) (window_pt x h b c i j (3 : Fin 4) 1 1 (by omega) (by omega) rfl rfl (window_in h b c i j (3 : Fin 4)))

/-- The word of +∞ is the top element. -/
theorem ofBits_posInf : Ideal.ofBits .f32 0x7F800000#32 = (⊤ : EReal) := by
  simp [Ideal.ofBits, Ideal.ieee]

/-- The word of -∞ is the bottom element. -/
theorem ofBits_negInf : Ideal.ofBits .f32 0xFF800000#32 = (⊥ : EReal) := by
  simp [Ideal.ofBits, Ideal.ieee]

/-- Four samples folded from the left are the two pairs' minima combined, in the specification's grouping. -/
theorem min4 (A B C D : EReal) : min (min (min A B) C) D = min (min D C) (min B A) := by
  rw [min_assoc (min A B) C D, min_comm D C, min_comm B A, min_comm (min C D) (min A B)]

/-- Four samples folded from the left are the two pairs' maxima combined. -/
theorem max4 (A B C D : EReal) : max (max (max A B) C) D = max (max A B) (max C D) :=
  max_assoc (max A B) C D

/-- Two indices with equal row and column coordinates are equal. -/
theorem ix4_congr {n2 n3 : Nat} (b : Fin 8) (c : Fin 16) {i i' : Fin n2} {j j' : Fin n3} (hi : i.val = i'.val) (hj : j.val = j'.val) :
    (ix4 b c i j : (⟨4, ![8, 16, n2, n3]⟩ : Shape).Idx) = ix4 b c i' j' := by
  rw [Fin.ext hi, Fin.ext hj]

/-- The window minimum over the front-padded array is the specification's erosion. -/
theorem erode_apply (X : FVec Ideal S8x16x512x512 .f32) (b : Fin 8) (c : Fin 16) (i j : Fin 512) :
    erode (F := Ideal) X (ix4 b c i j) = Cert.Spec.ero (Cert.Spec.img4 X b c) i j := by
  unfold erode
  refine (reduceWindow_apply _ _ _ _ _ b c i j).trans ?_
  rw [padLo_apply, padLo_apply, padLo_apply, padLo_apply]
  show min (min (min (min (Ideal.ofBits .f32 0x7F800000#32) _) _) _) _ = _
  rw [ofBits_posInf, min_top_left, min4]
  unfold Cert.Spec.ero Cert.Spec.img4
  refine congrArg₂ min (congrArg₂ min ?_ ?_) (congrArg₂ min ?_ ?_)
  · exact congrArg X (ix4_congr b c (by show i.val + 1 - 1 = i.val; omega) (by show j.val + 1 - 1 = j.val; omega))
  · exact congrArg X (ix4_congr b c (by show i.val + 1 - 1 = i.val; omega) (by show j.val + 0 - 1 = j.val - 1; omega))
  · exact congrArg X (ix4_congr b c (by show i.val + 0 - 1 = i.val - 1; omega) (by show j.val + 1 - 1 = j.val; omega))
  · exact congrArg X (ix4_congr b c (by show i.val + 0 - 1 = i.val - 1; omega) (by show j.val + 0 - 1 = j.val - 1; omega))

/-- The window maximum over the back-padded array is the specification's dilation. -/
theorem dilate_apply (E : FVec Ideal S8x16x512x512 .f32) (b : Fin 8) (c : Fin 16) (i j : Fin 512) :
    dilate (F := Ideal) E (ix4 b c i j) = Cert.Spec.dil (fun i j => E (ix4 b c i j)) i j := by
  unfold dilate
  refine (reduceWindow_apply _ _ _ _ _ b c i j).trans ?_
  rw [padHi_apply, padHi_apply, padHi_apply, padHi_apply]
  show max (max (max (max (Ideal.ofBits .f32 0xFF800000#32) _) _) _) _ = _
  rw [ofBits_negInf, max_bot_left, max4]
  unfold Cert.Spec.dil
  refine congrArg₂ max (congrArg₂ max ?_ ?_) (congrArg₂ max ?_ ?_)
  · exact congrArg E (ix4_congr b c (by show min (i.val + 0) 511 = i.val; omega) (by show min (j.val + 0) 511 = j.val; omega))
  · exact congrArg E (ix4_congr b c (by show min (i.val + 0) 511 = i.val; omega) (by show min (j.val + 1) 511 = min (j.val + 1) 511; rfl))
  · exact congrArg E (ix4_congr b c (by show min (i.val + 1) 511 = min (i.val + 1) 511; rfl) (by show min (j.val + 0) 511 = j.val; omega))
  · exact congrArg E (ix4_congr b c (by show min (i.val + 1) 511 = min (i.val + 1) 511; rfl) (by show min (j.val + 1) 511 = min (j.val + 1) 511; rfl))

/-- The difference with the opening at a pixel, in the specification's words. -/
theorem diff_apply (X : FVec Ideal S8x16x512x512 .f32) (b : Fin 8) (c : Fin 16) (i j : Fin 512) :
    diff (F := Ideal) X (ix4 b c i j)
      = Cert.Spec.img4 X b c i j - Cert.Spec.dil (Cert.Spec.ero (Cert.Spec.img4 X b c)) i j := by
  unfold diff
  rw [subf_apply, dilate_apply]
  have he : (fun i j => erode (F := Ideal) X (ix4 b c i j)) = Cert.Spec.ero (Cert.Spec.img4 X b c) :=
    funext fun i => funext fun j => erode_apply X b c i j
  rw [he]
  rfl

/-- The reference's result is the total of the specification. -/
theorem refTerm_apply (X : FVec Ideal S8x16x512x512 .f32) (y : S_.Idx) :
    refTerm (F := Ideal) X y = Cert.Spec.refTotal X := by
  unfold refTerm Cert.Spec.refTotal
  rw [hostDivf_apply, hostReduceAdd_apply, Ideal.hostReduceAdd_total _ (fun b => b.elim0), constant_apply,
    constant_apply, Ideal.ofBits_zero_f32, zero_add]
  refine congrArg (fun s => Ideal.div s (Ideal.ofBits .f32 0x4C000000#32)) (Finset.sum_congr rfl fun idx _ => ?_)
  obtain ⟨b, c, i, j, rfl⟩ : ∃ b c i j, idx = ix4 b c i j := ⟨_, _, _, _, eq_ix4 idx⟩
  show diff (F := Ideal) X (ix4 b c i j) * diff (F := Ideal) X (ix4 b c i j) = Cert.Spec.sqd (Cert.Spec.img4 X b c) i j
  rw [diff_apply]
  rfl

end Cert.ReferenceIdeal.RefValue

end
-- ==== Proof.Algebra.lean ====
/-
  The two totals of the specification are one number.

  Both add up the same 128 image losses: the kernel block by block (four images a block, 32
  blocks), the reference over every index of the four-axis array at once. Addition of extended
  reals is commutative and associative, so the order and grouping do not matter; and dividing by
  2²⁵ is multiplying by 2⁻²⁵, at the infinities too.
-/
import proofs.«129981_j61349312856565_1_alg».proof.Proof.Spec
import Mathlib.Algebra.BigOperators.Fin
import Mathlib.Algebra.BigOperators.Group.Finset.Sigma

noncomputable section

namespace Cert.Spec

open Idealize.ShloMosaic Idealize.ShloMosaic.ValueIdx

/-- The kernel's scale word is 2⁻²⁵. -/
theorem ofBits_scale : Ideal.ofBits .f32 0x33000000#32 = ((1 / 33554432 : ℝ) : EReal) := by
  simp [Ideal.ofBits, Ideal.ieee, -EReal.coe_mul]; norm_num

/-- The reference's divisor word is 2²⁵. -/
theorem ofBits_count : Ideal.ofBits .f32 0x4C000000#32 = ((33554432 : ℝ) : EReal) := by
  simp [Ideal.ofBits, Ideal.ieee, -EReal.coe_mul]; norm_num

/-- An index of the four-axis array is its four coordinates. -/
def idxEquiv4 : S4.Idx ≃ Fin 8 × Fin 16 × Fin 512 × Fin 512 where
  toFun i := (i 0, i 1, i 2, i 3)
  invFun p := ix4 p.1 p.2.1 p.2.2.1 p.2.2.2
  left_inv i := (eq_ix4 i).symm
  right_inv _ := rfl

/-- So a sum over the array is the fourfold sum over the coordinates. -/
theorem sum_idx4 (f : S4.Idx → EReal) :
    ∑ i, f i = ∑ b : Fin 8, ∑ c : Fin 16, ∑ i : Fin 512, ∑ j : Fin 512, f (ix4 b c i j) := by
  rw [← Equiv.sum_comp idxEquiv4.symm f, Fintype.sum_prod_type]
  refine Finset.sum_congr rfl fun b _ => ?_
  rw [Fintype.sum_prod_type]
  refine Finset.sum_congr rfl fun c _ => ?_
  rw [Fintype.sum_prod_type]
  rfl

/-- Image (b, c) is image 16 b + c of the stack. -/
def stackEquiv : Fin 8 × Fin 16 ≃ Fin 128 where
  toFun p := ⟨16 * p.1.val + p.2.val, by omega⟩
  invFun g := (⟨g.val / 16, by omega⟩, ⟨g.val % 16, by omega⟩)
  left_inv p := by
    apply Prod.ext <;> apply Fin.ext <;> simp only <;> omega
  right_inv g := by
    apply Fin.ext; simp only; omega

/-- Image n of block t is image 4 t + n of the stack. -/
def blockEquiv : Fin 32 × Fin 4 ≃ Fin 128 where
  toFun p := ⟨4 * p.1.val + p.2.val, by omega⟩
  invFun g := (⟨g.val / 4, by omega⟩, ⟨g.val % 4, by omega⟩)
  left_inv p := by
    apply Prod.ext <;> apply Fin.ext <;> simp only <;> omega
  right_inv g := by
    apply Fin.ext; simp only; omega

theorem img4_eq (X : S4.Idx → EReal) (b : Fin 8) (c : Fin 16) : img4 X b c = imgOf X (stackEquiv (b, c)) := by
  unfold imgOf stackEquiv
  congr 1 <;> apply Fin.ext <;> simp only [Equiv.coe_fn_mk] <;> omega

/-- The kernel's blocks and the reference's index set list the same images. -/
theorem sum_blocks (X : S4.Idx → EReal) :
    ∑ t : Fin 32, ∑ n : Fin 4, imgSum (imgAt X t n) = ∑ g : Fin 128, imgSum (imgOf X g) := by
  rw [← Equiv.sum_comp blockEquiv (fun g => imgSum (imgOf X g)), Fintype.sum_prod_type]
  rfl

theorem sum_stack (X : S4.Idx → EReal) :
    ∑ idx : S4.Idx, sqd (img4 X (idx 0) (idx 1)) (idx 2) (idx 3) = ∑ g : Fin 128, imgSum (imgOf X g) := by
  rw [sum_idx4, ← Equiv.sum_comp stackEquiv (fun g => imgSum (imgOf X g)), Fintype.sum_prod_type]
  refine Finset.sum_congr rfl fun b _ => Finset.sum_congr rfl fun c _ => ?_
  rw [← img4_eq]
  rfl

/-- The kernel's total is the reference's. -/
theorem total_eq (X : S4.Idx → EReal) : kerTotal X = refTotal X := by
  unfold kerTotal refTotal
  rw [sum_blocks, sum_stack, ofBits_scale, ofBits_count, Ideal.div_coe (by norm_num : (33554432 : ℝ) ≠ 0)]

end Cert.Spec

end
-- ==== Proof.lean ====
/-
  The kernel computes, for each of 128 images of 512 × 512 samples, the grey opening by the flat
  2 × 2 element (a 2 × 2 window minimum, then a 2 × 2 window maximum, the border sample standing
  in for the neighbours that are missing), and returns the mean over all 2²⁵ samples of the
  squared difference between image and opening. It does so block by block, four images at a grid
  point, into an accumulator that the last point scales by 2⁻²⁵; the reference pads the whole
  array by replication, takes the two window reductions, sums every sample at once and divides by
  2²⁵. Over the extended reals both are one number: the shifted copies the kernel builds read the
  same clamped neighbours as the reference's padding, minimum and maximum do not depend on
  grouping, the sum does not depend on order or blocking, and dividing by 2²⁵ is multiplying by
  2⁻²⁵ everywhere, the infinities included — so the precondition is never opened.

  The three frames: the two kernel programs' are the generated frame certificates; the
  reference's is its run with the result dropped. The idealization rewrote nothing.
-/
import proofs.«129981_j61349312856565_1_alg».proof.Defs
import proofs.«129981_j61349312856565_1_alg».proof.Proof.Gen.Kernel
import proofs.«129981_j61349312856565_1_alg».proof.Proof.Gen.Kernel.Frame
import proofs.«129981_j61349312856565_1_alg».proof.Proof.Gen.KernelIdeal
import proofs.«129981_j61349312856565_1_alg».proof.Proof.Gen.KernelIdeal.Frame
import proofs.«129981_j61349312856565_1_alg».proof.Proof.Gen.ReferenceIdeal
import proofs.«129981_j61349312856565_1_alg».proof.Proof.Gen.Pre_finite_inputs
import proofs.«129981_j61349312856565_1_alg».proof.Proof.KerTotal
import proofs.«129981_j61349312856565_1_alg».proof.Proof.RefRun
import proofs.«129981_j61349312856565_1_alg».proof.Proof.RefValue
import proofs.«129981_j61349312856565_1_alg».proof.Proof.Algebra

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the same extended real: the kernel's block-by-block total is the
    reference's total of an argument that agrees. -/
theorem algebraic : Cert.algebraic_KernelIdeal_ReferenceIdeal := by
  intro m ρ m' ρ' _ hagree
  refine ⟨fun c => shapeCast Cert.KernelIdeal.S_ (Cert.KernelIdeal.KerValue.result m c) Cert.KernelIdeal.Facts₀.shapeCasts_S1x1_S_,
    Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  funext y
  rw [hagree c, Cert.ReferenceIdeal.RefValue.refTerm_apply]
  exact ((Cert.KernelIdeal.KerTotal.result_apply m c y).trans (Cert.Spec.total_eq _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
